-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S16x1x512x512 : Shape := ⟨4, ![16, 1, 512, 512]⟩
abbrev S1x3x512x512 : Shape := ⟨4, ![1, 3, 512, 512]⟩
abbrev S1x1x512x512 : Shape := ⟨4, ![1, 1, 512, 512]⟩
abbrev S_ : Shape := ⟨0, ![]⟩
abbrev S16x1x1x512 : Shape := ⟨4, ![16, 1, 1, 512]⟩
abbrev S16x1x7x512 : Shape := ⟨4, ![16, 1, 7, 512]⟩
abbrev S16x1x519x512 : Shape := ⟨4, ![16, 1, 519, 512]⟩
abbrev S16x1x526x512 : Shape := ⟨4, ![16, 1, 526, 512]⟩
abbrev S16x1x526x1 : Shape := ⟨4, ![16, 1, 526, 1]⟩
abbrev S16x1x526x7 : Shape := ⟨4, ![16, 1, 526, 7]⟩
abbrev S16x1x526x519 : Shape := ⟨4, ![16, 1, 526, 519]⟩
abbrev S16x1x526x526 : Shape := ⟨4, ![16, 1, 526, 526]⟩
abbrev S1x1 : Shape := ⟨2, ![1, 1]⟩
abbrev S1x1x526x526 : Shape := ⟨4, ![1, 1, 526, 526]⟩
abbrev S526x526 : Shape := ⟨2, ![526, 526]⟩
abbrev S526x512 : Shape := ⟨2, ![526, 512]⟩
abbrev S512x512 : Shape := ⟨2, ![512, 512]⟩
abbrev S512 : Shape := ⟨1, ![512]⟩
abbrev S512x1 : Shape := ⟨2, ![512, 1]⟩
abbrev S1 : Shape := ⟨1, ![1]⟩

abbrev nBuf : Space → Nat
  | .hbm => 42
  | .vmem => 13
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x1x512x512, .f32⟩
  | .hbm, ⟨3, _⟩ => ⟨S16x1x512x512, .f32⟩
  | .hbm, ⟨4, _⟩ => ⟨S_, .i32⟩
  | .hbm, ⟨5, _⟩ => ⟨S16x1x1x512, .f32⟩
  | .hbm, ⟨6, _⟩ => ⟨S16x1x7x512, .f32⟩
  | .hbm, ⟨7, _⟩ => ⟨S16x1x7x512, .f32⟩
  | .hbm, ⟨8, _⟩ => ⟨S16x1x519x512, .f32⟩
  | .hbm, ⟨9, _⟩ => ⟨S16x1x1x512, .f32⟩
  | .hbm, ⟨10, _⟩ => ⟨S16x1x7x512, .f32⟩
  | .hbm, ⟨11, _⟩ => ⟨S16x1x7x512, .f32⟩
  | .hbm, ⟨12, _⟩ => ⟨S16x1x526x512, .f32⟩
  | .hbm, ⟨13, _⟩ => ⟨S16x1x526x1, .f32⟩
  | .hbm, ⟨14, _⟩ => ⟨S16x1x526x7, .f32⟩
  | .hbm, ⟨15, _⟩ => ⟨S16x1x526x7, .f32⟩
  | .hbm, ⟨16, _⟩ => ⟨S16x1x526x519, .f32⟩
  | .hbm, ⟨17, _⟩ => ⟨S16x1x526x1, .f32⟩
  | .hbm, ⟨18, _⟩ => ⟨S16x1x526x7, .f32⟩
  | .hbm, ⟨19, _⟩ => ⟨S16x1x526x7, .f32⟩
  | .hbm, ⟨20, _⟩ => ⟨S16x1x526x526, .f32⟩
  | .hbm, ⟨21, _⟩ => ⟨S_, .i32⟩
  | .hbm, ⟨22, _⟩ => ⟨S16x1x1x512, .f32⟩
  | .hbm, ⟨23, _⟩ => ⟨S16x1x7x512, .f32⟩
  | .hbm, ⟨24, _⟩ => ⟨S16x1x7x512, .f32⟩
  | .hbm, ⟨25, _⟩ => ⟨S16x1x519x512, .f32⟩
  | .hbm, ⟨26, _⟩ => ⟨S16x1x1x512, .f32⟩
  | .hbm, ⟨27, _⟩ => ⟨S16x1x7x512, .f32⟩
  | .hbm, ⟨28, _⟩ => ⟨S16x1x7x512, .f32⟩
  | .hbm, ⟨29, _⟩ => ⟨S16x1x526x512, .f32⟩
  | .hbm, ⟨30, _⟩ => ⟨S16x1x526x1, .f32⟩
  | .hbm, ⟨31, _⟩ => ⟨S16x1x526x7, .f32⟩
  | .hbm, ⟨32, _⟩ => ⟨S16x1x526x7, .f32⟩
  | .hbm, ⟨33, _⟩ => ⟨S16x1x526x519, .f32⟩
  | .hbm, ⟨34, _⟩ => ⟨S16x1x526x1, .f32⟩
  | .hbm, ⟨35, _⟩ => ⟨S16x1x526x7, .f32⟩
  | .hbm, ⟨36, _⟩ => ⟨S16x1x526x7, .f32⟩
  | .hbm, ⟨37, _⟩ => ⟨S16x1x526x526, .f32⟩
  | .hbm, ⟨38, _⟩ => ⟨S1x1, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x512x512, .f32⟩
  | .local _ .vmem, ⟨7, _⟩ => ⟨S1x1x512x512, .f32⟩
  | .local _ .vmem, ⟨8, _⟩ => ⟨S1x1x526x526, .f32⟩
  | .local _ .vmem, ⟨9, _⟩ => ⟨S1x1x526x526, .f32⟩
  | .local _ .vmem, ⟨10, _⟩ => ⟨S1x1x526x526, .f32⟩
  | .local _ .vmem, ⟨11, _⟩ => ⟨S1x1x526x526, .f32⟩
  | .local _ .vmem, ⟨12, _⟩ => ⟨S1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_v1 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_cst : Ref sig .tc := ⟨.hbm, 40, rfl⟩
abbrev main_v5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x526x526 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x526x526 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  slices_S1x3x512x512_o0_0_0_0_S1x1x512x512 : S1x3x512x512.Slices ![0, 0, 0, 0] S1x1x512x512
  slices_S1x3x512x512_o0_1_0_0_S1x1x512x512 : S1x3x512x512.Slices ![0, 1, 0, 0] S1x1x512x512
  slices_S1x3x512x512_o0_2_0_0_S1x1x512x512 : S1x3x512x512.Slices ![0, 2, 0, 0] S1x1x512x512
  inb_S1x1x512x512_S1x1x512x512_0_0_0_0 : ∀ a, (![0, 0, 0, 0] : Fin 4 → Nat) a + S1x1x512x512.size a ≤ S1x1x512x512.size a
  h_S1x1x512x512 : 0 < S1x1x512x512.numel
  slices_S16x1x512x512_S16x1x1x512_0_0_0_0 : S16x1x512x512.Slices ![0, 0, 0, 0] S16x1x1x512
  slices_S16x1x512x512_S16x1x7x512_0_0_1_0 : S16x1x512x512.Slices ![0, 0, 1, 0] S16x1x7x512
  concatenates_S16x1x7x512_S16x1x512x512_S16x1x519x512_d2 : Shape.Concatenates [S16x1x7x512, S16x1x512x512] S16x1x519x512 2
  slices_S16x1x519x512_S16x1x1x512_0_0_518_0 : S16x1x519x512.Slices ![0, 0, 518, 0] S16x1x1x512
  slices_S16x1x519x512_S16x1x7x512_0_0_511_0 : S16x1x519x512.Slices ![0, 0, 511, 0] S16x1x7x512
  concatenates_S16x1x519x512_S16x1x7x512_S16x1x526x512_d2 : Shape.Concatenates [S16x1x519x512, S16x1x7x512] S16x1x526x512 2
  slices_S16x1x526x512_S16x1x526x1_0_0_0_0 : S16x1x526x512.Slices ![0, 0, 0, 0] S16x1x526x1
  slices_S16x1x526x512_S16x1x526x7_0_0_0_1 : S16x1x526x512.Slices ![0, 0, 0, 1] S16x1x526x7
  concatenates_S16x1x526x7_S16x1x526x512_S16x1x526x519_d3 : Shape.Concatenates [S16x1x526x7, S16x1x526x512] S16x1x526x519 3
  slices_S16x1x526x519_S16x1x526x1_0_0_0_518 : S16x1x526x519.Slices ![0, 0, 0, 518] S16x1x526x1
  slices_S16x1x526x519_S16x1x526x7_0_0_0_511 : S16x1x526x519.Slices ![0, 0, 0, 511] S16x1x526x7
  concatenates_S16x1x526x519_S16x1x526x7_S16x1x526x526_d3 : Shape.Concatenates [S16x1x526x519, S16x1x526x7] S16x1x526x526 3
  inb_S1x1_S1x1_0_0 : ∀ a, (![0, 0] : Fin 2 → Nat) a + S1x1.size a ≤ S1x1.size a
  h_S1x1 : 0 < S1x1.numel
  inb_S1x1x526x526_S1x1x526x526_0_0_0_0 : ∀ a, (![0, 0, 0, 0] : Fin 4 → Nat) a + S1x1x526x526.size a ≤ S1x1x526x526.size a
  h_S1x1x526x526 : 0 < S1x1x526x526.numel
  shapeCasts_S1x1x526x526_S526x526 : S1x1x526x526.ShapeCasts S526x526
  slices_S526x526_o0_0_S526x512 : S526x526.Slices ![0, 0] S526x512
  slices_S526x526_o0_1_S526x512 : S526x526.Slices ![0, 1] S526x512
  slices_S526x526_o0_2_S526x512 : S526x526.Slices ![0, 2] S526x512
  slices_S526x526_o0_3_S526x512 : S526x526.Slices ![0, 3] S526x512
  slices_S526x526_o0_4_S526x512 : S526x526.Slices ![0, 4] S526x512
  slices_S526x526_o0_5_S526x512 : S526x526.Slices ![0, 5] S526x512
  slices_S526x526_o0_6_S526x512 : S526x526.Slices ![0, 6] S526x512
  slices_S526x526_o0_7_S526x512 : S526x526.Slices ![0, 7] S526x512
  slices_S526x526_o0_8_S526x512 : S526x526.Slices ![0, 8] S526x512
  slices_S526x526_o0_9_S526x512 : S526x526.Slices ![0, 9] S526x512
  slices_S526x526_o0_10_S526x512 : S526x526.Slices ![0, 10] S526x512
  slices_S526x526_o0_11_S526x512 : S526x526.Slices ![0, 11] S526x512
  slices_S526x526_o0_12_S526x512 : S526x526.Slices ![0, 12] S526x512
  slices_S526x526_o0_13_S526x512 : S526x526.Slices ![0, 13] S526x512
  slices_S526x526_o0_14_S526x512 : S526x526.Slices ![0, 14] S526x512
  slices_S526x512_o0_0_S512x512 : S526x512.Slices ![0, 0] S512x512
  slices_S526x512_o1_0_S512x512 : S526x512.Slices ![1, 0] S512x512
  slices_S526x512_o2_0_S512x512 : S526x512.Slices ![2, 0] S512x512
  slices_S526x512_o3_0_S512x512 : S526x512.Slices ![3, 0] S512x512
  slices_S526x512_o4_0_S512x512 : S526x512.Slices ![4, 0] S512x512
  slices_S526x512_o5_0_S512x512 : S526x512.Slices ![5, 0] S512x512
  slices_S526x512_o6_0_S512x512 : S526x512.Slices ![6, 0] S512x512
  slices_S526x512_o7_0_S512x512 : S526x512.Slices ![7, 0] S512x512
  slices_S526x512_o8_0_S512x512 : S526x512.Slices ![8, 0] S512x512
  slices_S526x512_o9_0_S512x512 : S526x512.Slices ![9, 0] S512x512
  slices_S526x512_o10_0_S512x512 : S526x512.Slices ![10, 0] S512x512
  slices_S526x512_o11_0_S512x512 : S526x512.Slices ![11, 0] S512x512
  slices_S526x512_o12_0_S512x512 : S526x512.Slices ![12, 0] S512x512
  slices_S526x512_o13_0_S512x512 : S526x512.Slices ![13, 0] S512x512
  slices_S526x512_o14_0_S512x512 : S526x512.Slices ![14, 0] S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S16x1x512x512.size a
  hwx0_2 : ∀ i : grid0.Coords, EltTy.bits .f32 = 32 ∨ (Rect.block (s := S16x1x512x512) S1x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x512.size a ≤ S16x1x512x512.size a
  hwx0_3 : ∀ i : grid0.Coords, EltTy.bits .f32 = 32 ∨ (Rect.block (s := S16x1x512x512) S1x1x512x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x526x526.size a ≤ S16x1x526x526.size a
  hwx1_0 : ∀ i : grid1.Coords, EltTy.bits .f32 = 32 ∨ (Rect.block (s := S16x1x526x526) S1x1x526x526.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x526x526.size a ≤ S16x1x526x526.size a
  hwx1_1 : ∀ i : grid1.Coords, EltTy.bits .f32 = 32 ∨ (Rect.block (s := S16x1x526x526) S1x1x526x526.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x1x526x526.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x526x526.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x3x512x512 : Shape := ⟨4, ![16, 3, 512, 512]⟩
abbrev S_ : Shape := ⟨0, ![]⟩
abbrev S16x512x512 : Shape := ⟨3, ![16, 512, 512]⟩
abbrev S16x1x512x512 : Shape := ⟨4, ![16, 1, 512, 512]⟩
abbrev S16x1x1x512 : Shape := ⟨4, ![16, 1, 1, 512]⟩
abbrev S16x1x7x512 : Shape := ⟨4, ![16, 1, 7, 512]⟩
abbrev S16x1x519x512 : Shape := ⟨4, ![16, 1, 519, 512]⟩
abbrev S16x1x526x512 : Shape := ⟨4, ![16, 1, 526, 512]⟩
abbrev S16x1x526x1 : Shape := ⟨4, ![16, 1, 526, 1]⟩
abbrev S16x1x526x7 : Shape := ⟨4, ![16, 1, 526, 7]⟩
abbrev S16x1x526x519 : Shape := ⟨4, ![16, 1, 526, 519]⟩
abbrev S16x1x526x526 : Shape := ⟨4, ![16, 1, 526, 526]⟩

abbrev nBuf : Space → Nat
  | .hbm => 82
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S_, .f32⟩
  | .hbm, ⟨3, _⟩ => ⟨S16x3x512x512, .f32⟩
  | .hbm, ⟨4, _⟩ => ⟨S16x3x512x512, .f32⟩
  | .hbm, ⟨5, _⟩ => ⟨S_, .f32⟩
  | .hbm, ⟨6, _⟩ => ⟨S16x3x512x512, .f32⟩
  | .hbm, ⟨7, _⟩ => ⟨S16x3x512x512, .f32⟩
  | .hbm, ⟨8, _⟩ => ⟨S_, .f32⟩
  | .hbm, ⟨9, _⟩ => ⟨S16x512x512, .f32⟩
  | .hbm, ⟨10, _⟩ => ⟨S16x1x512x512, .f32⟩
  | .hbm, ⟨11, _⟩ => ⟨S_, .i32⟩
  | .hbm, ⟨12, _⟩ => ⟨S16x1x1x512, .f32⟩
  | .hbm, ⟨13, _⟩ => ⟨S16x1x7x512, .f32⟩
  | .hbm, ⟨14, _⟩ => ⟨S16x1x7x512, .f32⟩
  | .hbm, ⟨15, _⟩ => ⟨S16x1x519x512, .f32⟩
  | .hbm, ⟨16, _⟩ => ⟨S16x1x1x512, .f32⟩
  | .hbm, ⟨17, _⟩ => ⟨S16x1x7x512, .f32⟩
  | .hbm, ⟨18, _⟩ => ⟨S16x1x7x512, .f32⟩
  | .hbm, ⟨19, _⟩ => ⟨S16x1x526x512, .f32⟩
  | .hbm, ⟨20, _⟩ => ⟨S16x1x526x1, .f32⟩
  | .hbm, ⟨21, _⟩ => ⟨S16x1x526x7, .f32⟩
  | .hbm, ⟨22, _⟩ => ⟨S16x1x526x7, .f32⟩
  | .hbm, ⟨23, _⟩ => ⟨S16x1x526x519, .f32⟩
  | .hbm, ⟨24, _⟩ => ⟨S16x1x526x1, .f32⟩
  | .hbm, ⟨25, _⟩ => ⟨S16x1x526x7, .f32⟩
  | .hbm, ⟨26, _⟩ => ⟨S16x1x526x7, .f32⟩
  | .hbm, ⟨27, _⟩ => ⟨S16x1x526x526, .f32⟩
  | .hbm, ⟨28, _⟩ => ⟨S_, .f32⟩
  | .hbm, ⟨29, _⟩ => ⟨S_, .f32⟩
  | .hbm, ⟨30, _⟩ => ⟨S16x1x512x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x1x512x512, .f32⟩
  | .hbm, ⟨35, _⟩ => ⟨S16x1x512x512, .f32⟩
  | .hbm, ⟨36, _⟩ => ⟨S_, .f32⟩
  | .hbm, ⟨37, _⟩ => ⟨S16x1x512x512, .f32⟩
  | .hbm, ⟨38, _⟩ => ⟨S16x1x512x512, .f32⟩
  | .hbm, ⟨39, _⟩ => ⟨S_, .f32⟩
  | .hbm, ⟨40, _⟩ => ⟨S16x3x512x512, .f32⟩
  | .hbm, ⟨41, _⟩ => ⟨S16x3x512x512, .f32⟩
  | .hbm, ⟨42, _⟩ => ⟨S_, .f32⟩
  | .hbm, ⟨43, _⟩ => ⟨S16x3x512x512, .f32⟩
  | .hbm, ⟨44, _⟩ => ⟨S16x3x512x512, .f32⟩
  | .hbm, ⟨45, _⟩ => ⟨S_, .f32⟩
  | .hbm, ⟨46, _⟩ => ⟨S16x512x512, .f32⟩
  | .hbm, ⟨47, _⟩ => ⟨S16x1x512x512, .f32⟩
  | .hbm, ⟨48, _⟩ => ⟨S_, .i32⟩
  | .hbm, ⟨49, _⟩ => ⟨S16x1x1x512, .f32⟩
  | .hbm, ⟨50, _⟩ => ⟨S16x1x7x512, .f32⟩
  | .hbm, ⟨51, _⟩ => ⟨S16x1x7x512, .f32⟩
  | .hbm, ⟨52, _⟩ => ⟨S16x1x519x512, .f32⟩
  | .hbm, ⟨53, _⟩ => ⟨S16x1x1x512, .f32⟩
  | .hbm, ⟨54, _⟩ => ⟨S16x1x7x512, .f32⟩
  | .hbm, ⟨55, _⟩ => ⟨S16x1x7x512, .f32⟩
  | .hbm, ⟨56, _⟩ => ⟨S16x1x526x512, .f32⟩
  | .hbm, ⟨57, _⟩ => ⟨S16x1x526x1, .f32⟩
  | .hbm, ⟨58, _⟩ => ⟨S16x1x526x7, .f32⟩
  | .hbm, ⟨59, _⟩ => ⟨S16x1x526x7, .f32⟩
  | .hbm, ⟨60, _⟩ => ⟨S16x1x526x519, .f32⟩
  | .hbm, ⟨61, _⟩ => ⟨S16x1x526x1, .f32⟩
  | .hbm, ⟨62, _⟩ => ⟨S16x1x526x7, .f32⟩
  | .hbm, ⟨63, _⟩ => ⟨S16x1x526x7, .f32⟩
  | .hbm, ⟨64, _⟩ => ⟨S16x1x526x526, .f32⟩
  | .hbm, ⟨65, _⟩ => ⟨S_, .f32⟩
  | .hbm, ⟨66, _⟩ => ⟨S_, .f32⟩
  | .hbm, ⟨67, _⟩ => ⟨S16x1x512x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S16x1x512x512, .f32⟩
  | .hbm, ⟨72, _⟩ => ⟨S16x1x512x512, .f32⟩
  | .hbm, ⟨73, _⟩ => ⟨S_, .f32⟩
  | .hbm, ⟨74, _⟩ => ⟨S16x1x512x512, .f32⟩
  | .hbm, ⟨75, _⟩ => ⟨S16x1x512x512, .f32⟩
  | .hbm, ⟨76, _⟩ => ⟨S16x1x512x512, .f32⟩
  | .hbm, ⟨77, _⟩ => ⟨S16x1x512x512, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_cst_3 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v9 : Ref sig .tc := ⟨.hbm, 38, rfl⟩
abbrev main_cst_5 : Ref sig .tc := ⟨.hbm, 39, rfl⟩
abbrev main_v10 : Ref sig .tc := ⟨.hbm, 40, rfl⟩
abbrev main_v11 : Ref sig .tc := ⟨.hbm, 41, rfl⟩
abbrev main_cst_6 : Ref sig .tc := ⟨.hbm, 42, rfl⟩
abbrev main_v12 : Ref sig .tc := ⟨.hbm, 43, rfl⟩
abbrev main_v13 : Ref sig .tc := ⟨.hbm, 44, rfl⟩
abbrev main_cst_7 : Ref sig .tc := ⟨.hbm, 45, rfl⟩
abbrev main_v14 : Ref sig .tc := ⟨.hbm, 46, rfl⟩
abbrev main_v15 : Ref sig .tc := ⟨.hbm, 47, rfl⟩
abbrev main_c_8 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_v16 : Ref sig .tc := ⟨.hbm, 64, rfl⟩
abbrev main_cst_9 : Ref sig .tc := ⟨.hbm, 65, rfl⟩
abbrev main_v17 : Ref sig .tc := ⟨.hbm, 66, rfl⟩
abbrev main_v18 : Ref sig .tc := ⟨.hbm, 67, rfl⟩
abbrev main_cst_10 : Ref sig .tc := ⟨.hbm, 68, rfl⟩
abbrev main_cst_11 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_12 : Ref sig .tc := ⟨.hbm, 78, rfl⟩
abbrev main_v22 : Ref sig .tc := ⟨.hbm, 79, rfl⟩
abbrev main_cst_13 : Ref sig .tc := ⟨.hbm, 80, rfl⟩
abbrev main_v23 : Ref sig .tc := ⟨.hbm, 81, rfl⟩

abbrev nD : Nat := 1
abbrev τ : Topo := Topo.v7x

variable {F : FTy → Type} [FloatOps F]

class Facts₀ : Prop where
  bcast_S_S16x3x512x512 : S_.BroadcastsInDim S16x3x512x512 (![] : Fin 0 → Fin S16x3x512x512.rank)
  reducesTo_S16x3x512x512_S16x512x512_d1 : S16x3x512x512.ReducesTo [1] S16x512x512
  h_S_ : 0 < S_.numel
  bcast_S16x512x512_S16x1x512x512_0_2_3 : S16x512x512.BroadcastsInDim S16x1x512x512 (![0, 2, 3] : Fin 3 → Fin S16x1x512x512.rank)
  slices_S16x1x512x512_S16x1x1x512_0_0_0_0 : S16x1x512x512.Slices ![0, 0, 0, 0] S16x1x1x512
  slices_S16x1x512x512_S16x1x7x512_0_0_1_0 : S16x1x512x512.Slices ![0, 0, 1, 0] S16x1x7x512
  concatenates_S16x1x7x512_S16x1x512x512_S16x1x519x512_d2 : Shape.Concatenates [S16x1x7x512, S16x1x512x512] S16x1x519x512 2
  slices_S16x1x519x512_S16x1x1x512_0_0_518_0 : S16x1x519x512.Slices ![0, 0, 518, 0] S16x1x1x512
  slices_S16x1x519x512_S16x1x7x512_0_0_511_0 : S16x1x519x512.Slices ![0, 0, 511, 0] S16x1x7x512
  concatenates_S16x1x519x512_S16x1x7x512_S16x1x526x512_d2 : Shape.Concatenates [S16x1x519x512, S16x1x7x512] S16x1x526x512 2
  slices_S16x1x526x512_S16x1x526x1_0_0_0_0 : S16x1x526x512.Slices ![0, 0, 0, 0] S16x1x526x1
  slices_S16x1x526x512_S16x1x526x7_0_0_0_1 : S16x1x526x512.Slices ![0, 0, 0, 1] S16x1x526x7
  concatenates_S16x1x526x7_S16x1x526x512_S16x1x526x519_d3 : Shape.Concatenates [S16x1x526x7, S16x1x526x512] S16x1x526x519 3
  slices_S16x1x526x519_S16x1x526x1_0_0_0_518 : S16x1x526x519.Slices ![0, 0, 0, 518] S16x1x526x1
  slices_S16x1x526x519_S16x1x526x7_0_0_0_511 : S16x1x526x519.Slices ![0, 0, 0, 511] S16x1x526x7
  concatenates_S16x1x526x519_S16x1x526x7_S16x1x526x526_d3 : Shape.Concatenates [S16x1x526x519, S16x1x526x7] S16x1x526x526 3
  bcast_S_S_ : S_.BroadcastsInDim S_ (![] : Fin 0 → Fin S_.rank)
  reduceWindows_S16x1x526x526_S16x1x512x512_w1s1p0_0_w1s1p0_0_w15s1p0_0_w15s1p0_0 : S16x1x526x526.ReduceWindows (![1, 1, 15, 15] : Fin 4 → Nat) ![1, 1, 1, 1] ![0, 0, 0, 0] ![0, 0, 0, 0] S16x1x512x512
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts₀]

class Facts : Prop extends Facts₀ where

variable [Facts]
-- ==== Proof.Spec.lean ====
/-
  The dark-channel loss of two image batches, written once over literal shapes, in the two forms it is computed in.

  The array form composes whole-array operations: shift every channel by one and divide by two, take the minimum over
  the three channels, reflect-pad by seven rows and columns on every side (the function `pad`, a parameter here: no
  law below looks inside it), take the minimum over every 15 x 15 window, clamp to [0, 0.1], subtract the two maps,
  square, sum over every entry from zero, divide by the number of entries.

  The pointwise form says what each entry is: the shift as (v + 1) * (1/2); the channel minimum as two nested binary
  minima; the window minimum as fifteen nested minima along the columns inside fifteen along the rows; the sum as a
  running total over the sixteen images, each image adding the sum over its rows of the sum over its columns.
-/
import Idealize.ShloMosaic.PureOps.Ideal
import Idealize.ShloMosaic.PureOps.Ideal.Laws
import Idealize.ShloMosaic.Lib.ValueIdx

noncomputable section

namespace DarkChannel

open Idealize.ShloMosaic Idealize.ShloMosaic.ValueIdx
open scoped BigOperators

/-- A batch of sixteen three-channel 512 x 512 images. -/
abbrev Img : Shape := ⟨4, ![16, 3, 512, 512]⟩
/-- The channel minimum before the channel axis is put back. -/
abbrev Min3 : Shape := ⟨3, ![16, 512, 512]⟩
/-- One map per image. -/
abbrev Map : Shape := ⟨4, ![16, 1, 512, 512]⟩
/-- One padded map per image. -/
abbrev Padded : Shape := ⟨4, ![16, 1, 526, 526]⟩
/-- One image's padded map. -/
abbrev Tile : Shape := ⟨2, ![526, 526]⟩
/-- A scalar. -/
abbrev Sc : Shape := ⟨0, ![]⟩

/-! ## The array form -/

section ArrayForm

variable {F : FTy → Type} [FloatOps F]
variable (pad : FVec F Map .f32 → FVec F Padded .f32)

/-- (x + 1) / 2, then the minimum over the channel axis from +infinity, the channel axis put back with extent one. -/
def channelMinRef (x : FVec F Img .f32) : FVec F Map .f32 :=
  broadcastInDim Map ![0, 2, 3] (by decide : Min3.BroadcastsInDim Map (![0, 2, 3] : Fin 3 → Fin Map.rank))
    (Host.reduce FloatOps.minimumf
      (Host.divf
        (addf x (broadcastInDim Img ![] (by decide : Sc.BroadcastsInDim Img (![] : Fin 0 → Fin Img.rank))
          (constant Sc .f32 0x3F800000#32)))
        (broadcastInDim Img ![] (by decide : Sc.BroadcastsInDim Img (![] : Fin 0 → Fin Img.rank))
          (constant Sc .f32 0x40000000#32)))
      (constant Sc .f32 0x7F800000#32) (by decide : Img.ReducesTo [1] Min3) (by decide : 0 < Sc.numel))

/-- The minimum over every 15 x 15 window of the padded map, from +infinity. -/
def erodeRef (p : FVec F Padded .f32) : FVec F Map .f32 :=
  Host.reduceWindow FloatOps.minimumf ![1, 1, 15, 15] ![1, 1, 1, 1] ![0, 0, 0, 0] ![0, 0, 0, 0] p
    (broadcastInDim Sc ![] (by decide : Sc.BroadcastsInDim Sc (![] : Fin 0 → Fin Sc.rank)) (constant Sc .f32 0x7F800000#32))
    (by decide : Padded.ReduceWindows (![1, 1, 15, 15] : Fin 4 → Nat) ![1, 1, 1, 1] ![0, 0, 0, 0] ![0, 0, 0, 0] Map)
    (by decide : 0 < Sc.numel)

/-- min (0.1, max (0, x)), entry by entry. -/
def clampRef (x : FVec F Map .f32) : FVec F Map .f32 :=
  minimumf (broadcastInDim Map ![] (by decide : Sc.BroadcastsInDim Map (![] : Fin 0 → Fin Map.rank)) (constant Sc .f32 0x3DCCCCCD#32))
    (maximumf (broadcastInDim Map ![] (by decide : Sc.BroadcastsInDim Map (![] : Fin 0 → Fin Map.rank)) (constant Sc .f32 0x00000000#32)) x)

/-- The clamped dark channel of a batch. -/
def darkRef (x : FVec F Img .f32) : FVec F Map .f32 := clampRef (erodeRef (pad (channelMinRef x)))

/-- The mean squared difference of the two dark channels: the sum from zero over every entry, divided by 2^22. -/
def lossRef (x y : FVec F Img .f32) : FVec F Sc .f32 :=
  Host.divf
    (Host.reduceAdd (mulf (subf (darkRef pad x) (darkRef pad y)) (subf (darkRef pad x) (darkRef pad y)))
      (constant Sc .f32 0x00000000#32) (by decide : Map.ReducesTo [0, 1, 2, 3] Sc) (by decide : 0 < Sc.numel))
    (constant Sc .f32 0x4A800000#32)

end ArrayForm

/-! ## The pointwise form, over the extended reals -/

/-- (v + 1) * (1/2). -/
def half (v : Ideal .f32) : Ideal .f32 := (v + Ideal.ofBits .f32 0x3F800000#32) * Ideal.ofBits .f32 0x3F000000#32

/-- The smallest of the three shifted channels at one pixel. -/
def channelMinAt (x : FVec Ideal Img .f32) (b : Fin 16) (h w : Fin 512) : Ideal .f32 :=
  min (min (half (x (ix4 b (0 : Fin 3) h w))) (half (x (ix4 b (1 : Fin 3) h w)))) (half (x (ix4 b (2 : Fin 3) h w)))

/-- The channel-minimum map of a batch. -/
def channelMinK (x : FVec Ideal Img .f32) : FVec Ideal Map .f32 := fun i => channelMinAt x (i 0) (i 2) (i 3)

/-- Fifteen values' minimum, nested to the left. -/
def min15 (f : Fin 15 → Ideal .f32) : Ideal .f32 :=
  min (min (min (min (min (min (min (min (min (min (min (min (min (min (f 0) (f 1)) (f 2)) (f 3)) (f 4)) (f 5)) (f 6)) (f 7))
    (f 8)) (f 9)) (f 10)) (f 11)) (f 12)) (f 13)) (f 14)

/-- The minimum of the 15 x 15 window of a padded map whose top-left corner is (h, w): along the columns first. -/
def erodeAt (r : FVec Ideal Tile .f32) (h w : Fin 512) : Ideal .f32 :=
  min15 fun dh => min15 fun dw =>
    r (ix2 (⟨h.val + dh.val, by have := h.isLt; have := dh.isLt; omega⟩ : Fin 526)
      (⟨w.val + dw.val, by have := w.isLt; have := dw.isLt; omega⟩ : Fin 526))

/-- min (0.1, max (0, v)). -/
def clampS (v : Ideal .f32) : Ideal .f32 :=
  min (Ideal.ofBits .f32 0x3DCCCCCD#32) (max (Ideal.ofBits .f32 0x00000000#32) v)

/-- The squared difference of the two clamped window minima at one pixel. -/
def sqDiffAt (r f : FVec Ideal Tile .f32) (h w : Fin 512) : Ideal .f32 :=
  (clampS (erodeAt r h w) - clampS (erodeAt f h w)) * (clampS (erodeAt r h w) - clampS (erodeAt f h w))

/-- One image's share of the loss: the sum over the rows of the sum over the columns. -/
def tileLoss (r f : FVec Ideal Tile .f32) : Ideal .f32 := ∑ h : Fin 512, ∑ w : Fin 512, sqDiffAt r f h w

/-- Image `t`'s padded map. -/
def tile (p : FVec Ideal Padded .f32) (t : Fin 16) : FVec Ideal Tile .f32 :=
  fun j => p (ix4 t (0 : Fin 1) (j 0) (j 1))

/-- The running total after image `n`: zero plus image 0's share, then one share more per image. -/
def accLoss (p q : FVec Ideal Padded .f32) : (n : ℕ) → n < 16 → Ideal .f32
  | 0, h => Ideal.ofBits .f32 0x00000000#32 + tileLoss (tile p ⟨0, h⟩) (tile q ⟨0, h⟩)
  | n + 1, h => accLoss p q n (Nat.lt_of_succ_lt h) + tileLoss (tile p ⟨n + 1, h⟩) (tile q ⟨n + 1, h⟩)

/-- The loss in the pointwise form: the running total after the last image, divided by 2^22. -/
def lossK (pad : FVec Ideal Map .f32 → FVec Ideal Padded .f32) (x y : FVec Ideal Img .f32) : FVec Ideal Sc .f32 :=
  fun _ => Ideal.div (accLoss (pad (channelMinK x)) (pad (channelMinK y)) 15 (by decide)) (Ideal.ofBits .f32 0x4A800000#32)

end DarkChannel

end
-- ==== Proof.Reg0Value.lean ====
/-
  The first kernel's two result arrays: each grid point writes one image's channel-minimum map, block `t` of the array
  being image `t`, so after the sixteen points each array is the channel-minimum map of its argument.

  Per point: the body adds one to every entry of its three-channel block, halves it, and takes the minimum of the three
  channel slices; read at a pixel this is the smallest of the three shifted channels there. Block `t` of an argument is
  image `t` (block index `t` on the image axis, zero on the others), and block `t` of a result is image `t` of the result,
  so the sixteen write-backs cover the result array, each with its image's channel-minimum map.
-/
import proofs.«110682_j16363825398434_1_alg».proof.Proof.Gen.KernelIdeal.Frame
import proofs.«110682_j16363825398434_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The body's loads and stores start at the origin of their blocks. -/
theorem zero_offsets : (![0, 0, 0, 0] : Fin 4 → Nat) = fun _ => 0 := funext fun a => by fin_cases a <;> rfl

/-- The image a grid point works on: point `t` of the sixteen is image `t`. -/
def imageOf (t : Fin cfg0.N) : Fin 16 := t.cast N_0

/-! ## The body's arithmetic at a pixel -/

/-- The three channel slices of a one-image block, read at a pixel: channel 0, 1, 2 of the block at that pixel. -/
theorem slice_channel (v : S1x3x512x512.Idx → Ideal .f32) (h w : Fin 512) :
    extractStridedSlice S1x1x512x512 ![0, 0, 0, 0] v slices_S1x3x512x512_o0_0_0_0_S1x1x512x512 (ix4 (0 : Fin 1) (0 : Fin 1) h w)
        = v (ix4 (0 : Fin 1) (0 : Fin 3) h w)
    ∧ extractStridedSlice S1x1x512x512 ![0, 1, 0, 0] v slices_S1x3x512x512_o0_1_0_0_S1x1x512x512 (ix4 (0 : Fin 1) (0 : Fin 1) h w)
        = v (ix4 (0 : Fin 1) (1 : Fin 3) h w)
    ∧ extractStridedSlice S1x1x512x512 ![0, 2, 0, 0] v slices_S1x3x512x512_o0_2_0_0_S1x1x512x512 (ix4 (0 : Fin 1) (0 : Fin 1) h w)
        = v (ix4 (0 : Fin 1) (2 : Fin 3) h w) := by
  refine ⟨?_, ?_, ?_⟩ <;>
    refine extractStridedSlice_apply _ _ _ _ _ fun a => ?_ <;>
    match a with
    | ⟨0, _⟩ => rfl
    | ⟨1, _⟩ => rfl
    | ⟨2, _⟩ => (show h.val = 0 + h.val; omega)
    | ⟨3, _⟩ => (show w.val = 0 + w.val; omega)

/-- What the body stores for the first result, at a pixel: the smallest of the block's three channels there, each
    shifted by one and halved. -/
theorem payload_arg0_apply (x0 : Vec Ideal S1x3x512x512 .f32) (h w : Fin 512) :
    k0_pay1 (F := Ideal) x0 (ix4 (0 : Fin 1) (0 : Fin 1) h w)
      = min (min (DarkChannel.half (x0 (ix4 (0 : Fin 1) (0 : Fin 3) h w))) (DarkChannel.half (x0 (ix4 (0 : Fin 1) (1 : Fin 3) h w))))
          (DarkChannel.half (x0 (ix4 (0 : Fin 1) (2 : Fin 3) h w))) := by
  unfold k0_pay1
  rw [minimumf_apply, minimumf_apply]
  obtain ⟨e0, e1, e2⟩ := slice_channel (mulf (addf x0 (broadcast S1x3x512x512 (Scalar.ofBits .f32 0x3F800000#32))) (broadcast S1x3x512x512 (Scalar.ofBits .f32 0x3F000000#32))) h w
  rw [e0, e1, e2]
  rfl

/-- The same for the second result, over the second argument's block. -/
theorem payload_arg1_apply (x1 : Vec Ideal S1x3x512x512 .f32) (h w : Fin 512) :
    k0_pay2 (F := Ideal) x1 (ix4 (0 : Fin 1) (0 : Fin 1) h w)
      = min (min (DarkChannel.half (x1 (ix4 (0 : Fin 1) (0 : Fin 3) h w))) (DarkChannel.half (x1 (ix4 (0 : Fin 1) (1 : Fin 3) h w))))
          (DarkChannel.half (x1 (ix4 (0 : Fin 1) (2 : Fin 3) h w))) := by
  unfold k0_pay2
  rw [minimumf_apply, minimumf_apply]
  obtain ⟨e0, e1, e2⟩ := slice_channel (mulf (addf x1 (broadcast S1x3x512x512 (Scalar.ofBits .f32 0x3F800000#32))) (broadcast S1x3x512x512 (Scalar.ofBits .f32 0x3F000000#32))) h w
  rw [e0, e1, e2]
  rfl

/-! ## Where a block sits in its array -/

/-- The four windows' block indices, decided over the grid: at point `t` each is `t` on the image axis and zero on the
    channel, row and column axes. -/
theorem block_index : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- An entry of block `t` of the first argument sits in image `t` of the array, at the same channel, row and column:
    on each axis the array coordinate is the block index times the block's extent plus the coordinate inside the block. -/
theorem arg0_block_entry (t : Fin cfg0.N) (ch : Fin 3) (h w : Fin 512) :
    ((cfg0.win 0).blk t).view.emb (ix4 (0 : Fin 1) ch h w) = (ix4 (imageOf t) ch h w : S16x3x512x512.Idx) := by
  obtain ⟨e0, e1, e2, e3, -⟩ := block_index t
  funext a; apply Fin.ext
  match a with
  | ⟨0, _⟩ => show win0_0.index t (0 : Fin 4) * 1 + 1 * (0 : Nat) = t.val; omega
  | ⟨1, _⟩ => show win0_0.index t (1 : Fin 4) * 3 + 1 * ch.val = ch.val; omega
  | ⟨2, _⟩ => show win0_0.index t (2 : Fin 4) * 512 + 1 * h.val = h.val; omega
  | ⟨3, _⟩ => show win0_0.index t (3 : Fin 4) * 512 + 1 * w.val = w.val; omega

/-- The same for the second argument. -/
theorem arg1_block_entry (t : Fin cfg0.N) (ch : Fin 3) (h w : Fin 512) :
    ((cfg0.win 1).blk t).view.emb (ix4 (0 : Fin 1) ch h w) = (ix4 (imageOf t) ch h w : S16x3x512x512.Idx) := by
  obtain ⟨-, -, -, -, e0, e1, e2, e3, -⟩ := block_index t
  funext a; apply Fin.ext
  match a with
  | ⟨0, _⟩ => show win0_1.index t (0 : Fin 4) * 1 + 1 * (0 : Nat) = t.val; omega
  | ⟨1, _⟩ => show win0_1.index t (1 : Fin 4) * 3 + 1 * ch.val = ch.val; omega
  | ⟨2, _⟩ => show win0_1.index t (2 : Fin 4) * 512 + 1 * h.val = h.val; omega
  | ⟨3, _⟩ => show win0_1.index t (3 : Fin 4) * 512 + 1 * w.val = w.val; omega

/-- An entry of block `t` of the first result sits in image `t` of the result array, at the same row and column. -/
theorem res0_block_entry (t : Fin cfg0.N) (h w : Fin 512) :
    ((cfg0.win 2).blk t).view.emb (ix4 (0 : Fin 1) (0 : Fin 1) h w) = (ix4 (imageOf t) (0 : Fin 1) h w : S16x1x512x512.Idx) := by
  obtain ⟨-, -, -, -, -, -, -, -, e0, e1, e2, e3, -⟩ := block_index t
  funext a; apply Fin.ext
  match a with
  | ⟨0, _⟩ => show win0_2.index t (0 : Fin 4) * 1 + 1 * (0 : Nat) = t.val; omega
  | ⟨1, _⟩ => show win0_2.index t (1 : Fin 4) * 1 + 1 * (0 : Nat) = 0; omega
  | ⟨2, _⟩ => show win0_2.index t (2 : Fin 4) * 512 + 1 * h.val = h.val; omega
  | ⟨3, _⟩ => show win0_2.index t (3 : Fin 4) * 512 + 1 * w.val = w.val; omega

/-- The same for the second result. -/
theorem res1_block_entry (t : Fin cfg0.N) (h w : Fin 512) :
    ((cfg0.win 3).blk t).view.emb (ix4 (0 : Fin 1) (0 : Fin 1) h w) = (ix4 (imageOf t) (0 : Fin 1) h w : S16x1x512x512.Idx) := by
  obtain ⟨-, -, -, -, -, -, -, -, -, -, -, -, e0, e1, e2, e3⟩ := block_index t
  funext a; apply Fin.ext
  match a with
  | ⟨0, _⟩ => show win0_3.index t (0 : Fin 4) * 1 + 1 * (0 : Nat) = t.val; omega
  | ⟨1, _⟩ => show win0_3.index t (1 : Fin 4) * 1 + 1 * (0 : Nat) = 0; omega
  | ⟨2, _⟩ => show win0_3.index t (2 : Fin 4) * 512 + 1 * h.val = h.val; omega
  | ⟨3, _⟩ => show win0_3.index t (3 : Fin 4) * 512 + 1 * w.val = w.val; omega

/-! ## What each point writes back -/

/-- What point `t` writes back to the first result is block `t` of the channel-minimum map of the first argument. -/
theorem res0_written (c : Dev nD) (t : Fin cfg0.N) :
    (dat0 (F := Ideal) V c).flushed 2 t
      = ((cfg0.win 2).blk t).view.read (Elt Ideal) (DarkChannel.channelMinK (V c main_arg0)) := by
  show (cfg0.win 2).cut (grid0.coords t) ((dat0 V c).after 2 t) = _
  rw [after0_2]
  unfold out0_2
  rw [View.canon_unit_zero zero_offsets]
  simp only [View.ld_unit_zero (S := S1x3x512x512) zero_offsets]
  funext j
  obtain ⟨p, q, h, w, rfl⟩ : ∃ (p q : Fin 1) (h w : Fin 512), j = ix4 p q h w := ⟨j 0, j 1, j 2, j 3, eq_ix4 j⟩
  obtain rfl : p = 0 := Subsingleton.elim _ _
  obtain rfl : q = 0 := Subsingleton.elim _ _
  show k0_pay1 (F := Ideal) (iblk0 V c 0 t) (ix4 (0 : Fin 1) (0 : Fin 1) h w)
    = DarkChannel.channelMinK (V c main_arg0) (((cfg0.win 2).blk t).view.emb (ix4 (0 : Fin 1) (0 : Fin 1) h w))
  rw [res0_block_entry t h w]
  refine (payload_arg0_apply (iblk0 V c 0 t) h w).trans ?_
  show min (min (DarkChannel.half (V c main_arg0 (((cfg0.win 0).blk t).view.emb (ix4 (0 : Fin 1) (0 : Fin 3) h w))))
        (DarkChannel.half (V c main_arg0 (((cfg0.win 0).blk t).view.emb (ix4 (0 : Fin 1) (1 : Fin 3) h w)))))
      (DarkChannel.half (V c main_arg0 (((cfg0.win 0).blk t).view.emb (ix4 (0 : Fin 1) (2 : Fin 3) h w))))
    = DarkChannel.channelMinAt (V c main_arg0) (imageOf t) h w
  rw [arg0_block_entry t 0 h w, arg0_block_entry t 1 h w, arg0_block_entry t 2 h w]
  rfl

/-- What point `t` writes back to the second result is block `t` of the channel-minimum map of the second argument. -/
theorem res1_written (c : Dev nD) (t : Fin cfg0.N) :
    (dat0 (F := Ideal) V c).flushed 3 t
      = ((cfg0.win 3).blk t).view.read (Elt Ideal) (DarkChannel.channelMinK (V c main_arg1)) := by
  show (cfg0.win 3).cut (grid0.coords t) ((dat0 V c).after 3 t) = _
  rw [after0_3]
  unfold out0_3
  rw [View.canon_unit_zero zero_offsets]
  simp only [View.ld_unit_zero (S := S1x3x512x512) zero_offsets]
  funext j
  obtain ⟨p, q, h, w, rfl⟩ : ∃ (p q : Fin 1) (h w : Fin 512), j = ix4 p q h w := ⟨j 0, j 1, j 2, j 3, eq_ix4 j⟩
  obtain rfl : p = 0 := Subsingleton.elim _ _
  obtain rfl : q = 0 := Subsingleton.elim _ _
  show k0_pay2 (F := Ideal) (iblk0 V c 1 t) (ix4 (0 : Fin 1) (0 : Fin 1) h w)
    = DarkChannel.channelMinK (V c main_arg1) (((cfg0.win 3).blk t).view.emb (ix4 (0 : Fin 1) (0 : Fin 1) h w))
  rw [res1_block_entry t h w]
  refine (payload_arg1_apply (iblk0 V c 1 t) h w).trans ?_
  show min (min (DarkChannel.half (V c main_arg1 (((cfg0.win 1).blk t).view.emb (ix4 (0 : Fin 1) (0 : Fin 3) h w))))
        (DarkChannel.half (V c main_arg1 (((cfg0.win 1).blk t).view.emb (ix4 (0 : Fin 1) (1 : Fin 3) h w)))))
      (DarkChannel.half (V c main_arg1 (((cfg0.win 1).blk t).view.emb (ix4 (0 : Fin 1) (2 : Fin 3) h w))))
    = DarkChannel.channelMinAt (V c main_arg1) (imageOf t) h w
  rw [arg1_block_entry t 0 h w, arg1_block_entry t 1 h w, arg1_block_entry t 2 h w]
  rfl

/-! ## The sixteen blocks cover each result array -/

/-- An index of the first result array is in point `t`'s block iff each coordinate is in the block's range on its axis. -/
theorem res0_mem_block (t : Fin cfg0.N) (i : S16x1x512x512.Idx) :
    i ∈ ((cfg0.win 2).blk t).view.set ↔ ∀ a : Fin 4, win0_2.index t a * S1x1x512x512.size a ≤ (i a).val
      ∧ (i a).val < win0_2.index t a * S1x1x512x512.size a + S1x1x512x512.size a := by
  show i ∈ ((View.whole main_v0_0).slice (win0_2.rect t)).set ↔ _
  rw [View.set_slice_whole, Rect.mem_set_unit]
  exact Iff.rfl

/-- The same for the second result array. -/
theorem res1_mem_block (t : Fin cfg0.N) (i : S16x1x512x512.Idx) :
    i ∈ ((cfg0.win 3).blk t).view.set ↔ ∀ a : Fin 4, win0_3.index t a * S1x1x512x512.size a ≤ (i a).val
      ∧ (i a).val < win0_3.index t a * S1x1x512x512.size a + S1x1x512x512.size a := by
  show i ∈ ((View.whole main_v0_1).slice (win0_3.rect t)).set ↔ _
  rw [View.set_slice_whole, Rect.mem_set_unit]
  exact Iff.rfl

/-- Every entry of the first result array is written back by the point of its image. -/
theorem res0_covered (i : S16x1x512x512.Idx) :
    ∃ t : Fin cfg0.N, (cfg0.win 2).flush t = true ∧ i ∈ ((cfg0.win 2).blk t).view.set := by
  have hN : cfg0.N = 16 := N_0
  have h0 : (i 0).val < 16 := (i 0).isLt
  have h1 : (i 1).val < 1 := (i 1).isLt
  have h2 : (i 2).val < 512 := (i 2).isLt
  have h3 : (i 3).val < 512 := (i 3).isLt
  obtain ⟨t, ht⟩ : ∃ t : Fin cfg0.N, t.val = (i 0).val := ⟨⟨(i 0).val, by omega⟩, rfl⟩
  obtain ⟨-, -, -, -, -, -, -, -, e0, e1, e2, e3, -⟩ := block_index t
  refine ⟨t, flush0_2 t, ?_⟩
  rw [res0_mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- Every entry of the second result array is written back by the point of its image. -/
theorem res1_covered (i : S16x1x512x512.Idx) :
    ∃ t : Fin cfg0.N, (cfg0.win 3).flush t = true ∧ i ∈ ((cfg0.win 3).blk t).view.set := by
  have hN : cfg0.N = 16 := N_0
  have h0 : (i 0).val < 16 := (i 0).isLt
  have h1 : (i 1).val < 1 := (i 1).isLt
  have h2 : (i 2).val < 512 := (i 2).isLt
  have h3 : (i 3).val < 512 := (i 3).isLt
  obtain ⟨t, ht⟩ : ∃ t : Fin cfg0.N, t.val = (i 0).val := ⟨⟨(i 0).val, by omega⟩, rfl⟩
  obtain ⟨-, -, -, -, -, -, -, -, -, -, -, -, e0, e1, e2, e3⟩ := block_index t
  refine ⟨t, flush0_3 t, ?_⟩
  rw [res1_mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 512 ≤ (i 3).val ∧ (i 3).val < win0_3.index t (3 : Fin 4) * 512 + 512; omega

/-! ## The arrays after the sixteen points -/

theorem final2 (c : Dev nD) : (dat0 (F := Ideal) V c).arrAt 2 cfg0.N = DarkChannel.channelMinK (V c main_arg0) :=
  (dat0 V c).arrAt_eq_of_cover 2 (DarkChannel.channelMinK (V c main_arg0)) (fun t _ => res0_written V c t) res0_covered

theorem final3 (c : Dev nD) : (dat0 (F := Ideal) V c).arrAt 3 cfg0.N = DarkChannel.channelMinK (V c main_arg1) :=
  (dat0 V c).arrAt_eq_of_cover 3 (DarkChannel.channelMinK (V c main_arg1)) (fun t _ => res1_written V c t) res1_covered

end Cert.KernelIdeal.Reg0

end
-- ==== Proof.LibLayoutCols.lean ====
/-
  General lemmas, for any extents: the column forms of the layout operations read at coordinates.

  * A vector [a] viewed as a column [a, 1], and a column viewed as a vector: entry `i` either way.
  * A column [a, 1] spread over [a, b]: row `p`'s one entry at every column.
  * A trailing unit axis dropped from [a, b, 1] or added to [a, b]: the entry at (p, q) either way.
  * A unit-stride cut of a matrix along its columns that keeps ONE column `o`: the entry at (i, o).
  * A kernel's f32 sum along the rows into the zero word, with the accumulator's evidence spelt as a kernel prints it
    (`0 = 0`): row p's sum over the columns.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibLayoutCols

open Idealize.ShloMosaic Idealize.ShloMosaic.ValueIdx
open scoped BigOperators

variable {α : Type}

/-- A vector viewed as a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column viewed as a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column spread over the columns reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A trailing unit axis dropped: the entry at (p, q) is the operand's at (p, q, 0). -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    omega)

/-- A trailing unit axis added: the entry at (p, q, u) is the operand's at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    omega)

/-- One column `o` cut out of a matrix: the entry at (i, 0) of the cut is the matrix's at (i, o). -/
theorem slice_col_apply {n0 n1 : ℕ} (o : ℕ) (X : (⟨2, ![n0, n1]⟩ : Shape).Idx → α)
    (h : (⟨2, ![n0, n1]⟩ : Shape).Slices ![0, o] ⟨2, ![n0, 1]⟩) (i : Fin n0) (k : Fin n1) (hk : k.val = o) :
    extractStridedSlice ⟨2, ![n0, 1]⟩ ![0, o] X h (ix2 i (0 : Fin 1)) = X (ix2 i k) :=
  slice2_axis1_apply o X h i (0 : Fin 1) k (by show k.val = o + 0; omega)

/-- An f32 sum along the rows into the zero word, the accumulator's evidence the printed `0 = 0`, at row p. -/
theorem rowsum_f32_apply {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (p : Fin A) :
    multiReduction .add [1] ⟨1, ![A]⟩ src 0x00000000#32 h hφ hacc (ix1 p) = ∑ k : Fin B, src (ix2 p k) :=
  (Ideal.multiReduction_add_single src 0x00000000#32 h hφ hacc (ix1 p)).trans
    (Finset.sum_congr rfl fun k _ => congrArg src (funext fun a => Fin.ext (by
      match a with
      | ⟨0, _⟩ => rfl
      | ⟨1, _⟩ => rfl)))

end Cert.LibLayoutCols

end
-- ==== Proof.Reg1Pay.lean ====
/-
  What one grid point of the second kernel adds to the running total, as a value: from the two padded maps of one
  image, the window minima (fifteen shifted copies along the columns, then fifteen along the rows), the clamp, the
  squared difference, the sum along each row, the sum of the row sums; the point stores the total it loaded plus that.
-/
import proofs.«110682_j16363825398434_1_alg».proof.Proof.Gen.KernelIdeal.Skeleton
import proofs.«110682_j16363825398434_1_alg».proof.Proof.Spec
import proofs.«110682_j16363825398434_1_alg».proof.Proof.LibLayoutCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Idealize.ShloMosaic Idealize.ShloMosaic.TcCoe Idealize.SL.Sem Idealize.ShloMosaic.ValueIdx
open Cert.KernelIdeal Cert.KernelIdeal.Gen
open scoped BigOperators

/-- The value a point stores, from the two blocks it loads and the running total it loads. -/
def pointPay {F : FTy → Type} [FloatOps F] (x0 x1 : Vec F S1x1x526x526 .f32) (acc : Vec F S1x1 .f32) : FVec F S1x1 .f32 :=
  k1_pay1 (k1_pay7 (k1_pay4 x0) (k1_pay5 x0) (k1_pay6 x0)) (k1_pay8 (k1_pay3 x1)) (k1_pay9 (k1_pay3 x1)) (k1_pay10 (k1_pay3 x1)) acc

/-- A block [1, 1, 526, 526] as one image's padded map. -/
def tileOf (x : Vec Ideal S1x1x526x526 .f32) : FVec Ideal DarkChannel.Tile .f32 :=
  fun j => x (ix4 (0 : Fin 1) (0 : Fin 1) (j 0) (j 1))

/-- A cut of the padded map along its columns from `o`, read at (r, w): the map at (r, w + o). -/
theorem colSlice_apply (o : ℕ) (X : FVec Ideal S526x526 .f32) (hs : S526x526.Slices ![0, o] S526x512)
    (r : Fin 526) (w : Fin 512) (d : Fin 15) (hd : d.val = o) :
    extractStridedSlice S526x512 ![0, o] X hs (ix2 r w)
      = X (ix2 r (⟨w.val + d.val, by have := w.isLt; have := d.isLt; omega⟩ : Fin 526)) :=
  slice2_axis1_apply o X hs r w _ (by show w.val + d.val = o + w.val; omega)

/-- A cut of the column minima along the rows from `o`, read at (h, w): the minima at (h + o, w). -/
theorem rowSlice_apply (o : ℕ) (Y : FVec Ideal S526x512 .f32) (hs : S526x512.Slices ![o, 0] S512x512)
    (h w : Fin 512) (d : Fin 15) (hd : d.val = o) :
    extractStridedSlice S512x512 ![o, 0] Y hs (ix2 h w)
      = Y (ix2 (⟨h.val + d.val, by have := h.isLt; have := d.isLt; omega⟩ : Fin 526) w) :=
  slice2_axis0_apply o Y hs h w _ (by show h.val + d.val = o + h.val; omega)

/-- The column pass at (r, w): the minimum of the fifteen entries of row r from column w on. -/
theorem colPass_apply (X : FVec Ideal S526x526 .f32) (r : Fin 526) (w : Fin 512) :
    k1_pay8 X (ix2 r w)
      = DarkChannel.min15 fun dw => X (ix2 r (⟨w.val + dw.val, by have := w.isLt; have := dw.isLt; omega⟩ : Fin 526)) := by
  unfold k1_pay8 DarkChannel.min15
  simp only [minimumf_apply]
  rw [colSlice_apply 0 X _ r w 0 rfl, colSlice_apply 1 X _ r w 1 rfl, colSlice_apply 2 X _ r w 2 rfl,
    colSlice_apply 3 X _ r w 3 rfl, colSlice_apply 4 X _ r w 4 rfl, colSlice_apply 5 X _ r w 5 rfl,
    colSlice_apply 6 X _ r w 6 rfl, colSlice_apply 7 X _ r w 7 rfl, colSlice_apply 8 X _ r w 8 rfl,
    colSlice_apply 9 X _ r w 9 rfl, colSlice_apply 10 X _ r w 10 rfl, colSlice_apply 11 X _ r w 11 rfl,
    colSlice_apply 12 X _ r w 12 rfl, colSlice_apply 13 X _ r w 13 rfl, colSlice_apply 14 X _ r w 14 rfl]

/-- The column pass of the first map is the column pass of its matrix view. -/
theorem pay4_eq (x : Vec Ideal S1x1x526x526 .f32) : k1_pay4 x = k1_pay8 (k1_pay3 x) := rfl

/-- The matrix view of a block [1, 1, 526, 526] at (a, b): the block at (0, 0, a, b). -/
theorem pay3_apply (x : Vec Ideal S1x1x526x526 .f32) (a b : Fin 526) :
    k1_pay3 x (ix2 a b) = x (ix4 (0 : Fin 1) (0 : Fin 1) a b) := by
  unfold k1_pay3
  refine shapeCast_apply x _ _ _ ?_
  rw [Shape.rowMajor_val_two, Shape.rowMajor_val_four]
  show ((0 * 1 + 0) * 526 + a.val) * 526 + b.val = a.val * 526 + b.val
  omega

/-- The clamped window minimum of the first map at (h, w), over the column minima. -/
theorem rowClamp0 (x0 : Vec Ideal S1x1x526x526 .f32) (h w : Fin 512) :
    k1_pay7 (k1_pay4 x0) (k1_pay5 x0) (k1_pay6 x0) (ix2 h w)
      = DarkChannel.clampS (DarkChannel.min15 fun dh =>
          k1_pay4 x0 (ix2 (⟨h.val + dh.val, by have := h.isLt; have := dh.isLt; omega⟩ : Fin 526) w)) := by
  unfold k1_pay7 k1_pay5 k1_pay6 DarkChannel.clampS DarkChannel.min15
  generalize k1_pay4 x0 = Y
  simp only [minimumf_apply, maximumf_apply, broadcast_apply]
  rw [rowSlice_apply 0 Y _ h w 0 rfl, rowSlice_apply 1 Y _ h w 1 rfl, rowSlice_apply 2 Y _ h w 2 rfl,
    rowSlice_apply 3 Y _ h w 3 rfl, rowSlice_apply 4 Y _ h w 4 rfl, rowSlice_apply 5 Y _ h w 5 rfl,
    rowSlice_apply 6 Y _ h w 6 rfl, rowSlice_apply 7 Y _ h w 7 rfl, rowSlice_apply 8 Y _ h w 8 rfl,
    rowSlice_apply 9 Y _ h w 9 rfl, rowSlice_apply 10 Y _ h w 10 rfl, rowSlice_apply 11 Y _ h w 11 rfl,
    rowSlice_apply 12 Y _ h w 12 rfl, rowSlice_apply 13 Y _ h w 13 rfl, rowSlice_apply 14 Y _ h w 14 rfl]
  rfl

/-- A sum along the rows of a column [A, 1] into the zero word, at its one entry: the sum of the column. -/
theorem colsum_f32_apply {A : ℕ} (src : FVec Ideal ⟨2, ![A, 1]⟩ .f32)
    (h : (⟨2, ![A, 1]⟩ : Shape).Reduces [0] ⟨1, ![1]⟩) (hφ : FKind.Formats .f32)
    (hacc : (0x00000000#32 : BitVec 32) = 0x00000000#32) (p : Fin 1) :
    multiReduction .add [0] ⟨1, ![1]⟩ src 0x00000000#32 h hφ hacc (ix1 p) = ∑ k : Fin A, src (ix2 k p) :=
  (Ideal.multiReduction_add_single src 0x00000000#32 h hφ hacc (ix1 p)).trans
    (Finset.sum_congr rfl fun k _ => congrArg src (funext fun a => Fin.ext (by
      match a with
      | ⟨0, _⟩ => rfl
      | ⟨1, _⟩ => rfl)))

/-- The squared difference of two maps summed along each row, then over the rows, added to the loaded total. -/
theorem tail_apply (a b : FVec Ideal S512x512 .f32) (acc : Vec Ideal S1x1 .f32) (i j : Fin 1) :
    addf (shapeCast S1x1 acc shapeCasts_S1x1_S1x1)
      (shapeCast S1x1
        (multiReduction (F := Ideal) .add [0] S1
          (shapeCast S512x1
            (multiReduction (F := Ideal) .add [1] S512 (mulf (subf a b) (subf a b)) 0x00000000#32 reduces_S512x512_S512 (.inl rfl) rfl)
            shapeCasts_S512_S512x1)
          0x00000000#32 reduces_S512x1_S1 (.inl rfl) rfl)
        shapeCasts_S1_S1x1) (ix2 i j)
      = acc (ix2 i j) + ∑ h : Fin 512, ∑ w : Fin 512, (a (ix2 h w) - b (ix2 h w)) * (a (ix2 h w) - b (ix2 h w)) := by
  rw [addf_apply, shapeCast_self]
  refine congrArg (acc (ix2 i j) + ·) ?_
  refine (Cert.LibLayoutCols.shapeCast_a_a1_apply _ shapeCasts_S1_S1x1 i j).trans ?_
  refine (colsum_f32_apply _ reduces_S512x1_S1 (.inl rfl) rfl i).trans ?_
  refine Finset.sum_congr rfl fun h _ => ?_
  refine (Cert.LibLayoutCols.shapeCast_a_a1_apply _ shapeCasts_S512_S512x1 h i).trans ?_
  refine (Cert.LibLayoutCols.rowsum_f32_apply _ reduces_S512x512_S512 (.inl rfl) rfl h).trans ?_
  rfl

/-- What the point stores at (i, j), from the first map's clamped minima `a` and the second map's column minima. -/
theorem pay1_apply (a : FVec Ideal S512x512 .f32) (X : FVec Ideal S526x526 .f32) (acc : Vec Ideal S1x1 .f32) (i j : Fin 1) :
    k1_pay1 a (k1_pay8 X) (k1_pay9 X) (k1_pay10 X) acc (ix2 i j)
      = acc (ix2 i j) + ∑ h : Fin 512, ∑ w : Fin 512,
          (a (ix2 h w) - DarkChannel.clampS (DarkChannel.min15 fun dh =>
              k1_pay8 X (ix2 (⟨h.val + dh.val, by have := h.isLt; have := dh.isLt; omega⟩ : Fin 526) w)))
            * (a (ix2 h w) - DarkChannel.clampS (DarkChannel.min15 fun dh =>
              k1_pay8 X (ix2 (⟨h.val + dh.val, by have := h.isLt; have := dh.isLt; omega⟩ : Fin 526) w))) := by
  unfold k1_pay1 k1_pay9 k1_pay10 DarkChannel.clampS DarkChannel.min15
  generalize k1_pay8 X = Y
  refine (tail_apply a _ acc i j).trans ?_
  refine congrArg (acc (ix2 i j) + ·) ?_
  refine Finset.sum_congr rfl fun h _ => Finset.sum_congr rfl fun w _ => ?_
  simp only [minimumf_apply, maximumf_apply, broadcast_apply]
  rw [rowSlice_apply 0 Y _ h w 0 rfl, rowSlice_apply 1 Y _ h w 1 rfl, rowSlice_apply 2 Y _ h w 2 rfl,
    rowSlice_apply 3 Y _ h w 3 rfl, rowSlice_apply 4 Y _ h w 4 rfl, rowSlice_apply 5 Y _ h w 5 rfl,
    rowSlice_apply 6 Y _ h w 6 rfl, rowSlice_apply 7 Y _ h w 7 rfl, rowSlice_apply 8 Y _ h w 8 rfl,
    rowSlice_apply 9 Y _ h w 9 rfl, rowSlice_apply 10 Y _ h w 10 rfl, rowSlice_apply 11 Y _ h w 11 rfl,
    rowSlice_apply 12 Y _ h w 12 rfl, rowSlice_apply 13 Y _ h w 13 rfl, rowSlice_apply 14 Y _ h w 14 rfl]
  rfl

/-- The window minimum of a block's padded map at (h, w), from the column pass of its matrix view. -/
theorem erode_apply (x : Vec Ideal S1x1x526x526 .f32) (h w : Fin 512) :
    (DarkChannel.min15 fun dh =>
        k1_pay8 (k1_pay3 x) (ix2 (⟨h.val + dh.val, by have := h.isLt; have := dh.isLt; omega⟩ : Fin 526) w))
      = DarkChannel.erodeAt (tileOf x) h w := by
  unfold DarkChannel.erodeAt
  refine congrArg DarkChannel.min15 (funext fun dh => ?_)
  refine (colPass_apply (k1_pay3 x) _ w).trans ?_
  refine congrArg DarkChannel.min15 (funext fun dw => ?_)
  exact pay3_apply x _ _

/-- The value a point stores at (i, j). -/
theorem pointPay_apply_ix (x0 x1 : Vec Ideal S1x1x526x526 .f32) (acc : Vec Ideal S1x1 .f32) (i j : Fin 1) :
    pointPay x0 x1 acc (ix2 i j) = acc (ix2 i j) + DarkChannel.tileLoss (tileOf x0) (tileOf x1) := by
  unfold pointPay DarkChannel.tileLoss DarkChannel.sqDiffAt
  refine (pay1_apply _ (k1_pay3 x1) acc i j).trans ?_
  refine congrArg (acc (ix2 i j) + ·) ?_
  refine Finset.sum_congr rfl fun h _ => Finset.sum_congr rfl fun w _ => ?_
  rw [rowClamp0 x0 h w, pay4_eq x0, erode_apply x0 h w, erode_apply x1 h w]

/-- The value a point stores: the total it loaded plus the image's share of the loss. -/
theorem pointPay_apply (x0 x1 : Vec Ideal S1x1x526x526 .f32) (acc : Vec Ideal S1x1 .f32) (u : S1x1.Idx) :
    pointPay x0 x1 acc u = acc u + DarkChannel.tileLoss (tileOf x0) (tileOf x1) := by
  rw [eq_ix2 u]
  exact pointPay_apply_ix x0 x1 acc (u 0) (u 1)

end Cert.KernelIdeal.Reg1

end
-- ==== Proof.Reg1Value.lean ====
/-
  The second kernel's result array: its one block never moves, point 0 resets it to zero before adding, every point adds
  its image's share, and the last point's contents are what is written back: the running total after image 15.
-/
import proofs.«110682_j16363825398434_1_alg».proof.Proof.Gen.KernelIdeal.Frame
import proofs.«110682_j16363825398434_1_alg».proof.Proof.Spec
import proofs.«110682_j16363825398434_1_alg».proof.Proof.Reg1Pay
import Idealize.ShloMosaic.Lib.Pipeline.Value
import Idealize.ShloMosaic.Lib.ValueIdx
import Idealize.ShloMosaic.Lib.Tactic

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen

/-! ## The two cases' values: what a point leaves in the result block -/

section Cases

variable {F : FTy → Type} [FloatOps F]

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- Points 1 to 15: the one covering store leaves the total the point loaded plus the point's share. -/
theorem caseB_value (c : Dev nD) (i : grid1.Coords) (a1 : Memref sig .tc .vmem S1x1x526x526 .f32) (h1 : a1.IsWhole)
    (a2 : Memref sig .tc .vmem S1x1x526x526 .f32) (h2 : a2.IsWhole) (a3 : Memref sig .tc .vmem S1x1 .f32) (h3 : a3.IsWhole)
    (hc : ¬cond1_0 i) (x0 x1 : Vec F S1x1x526x526 .f32) (xo : Vec F S1x1 .f32) :
    out1_B_2 c i a1 h1 a2 h2 a3 h3 hc x0 x1 xo = pointPay x0 x1 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero zeros2]
  unfold pointPay
  simp only [View.readAt_eq_ld, h1.read_unread, h2.read_unread, h3.read_unread,
    View.ld_unit_zero (S := S1x1x526x526) zeros4, View.ld_unit_zero (S := S1x1) zeros2]

/-- Point 0: the zero block is stored and read back, and the later covering store leaves zero plus the point's share. -/
theorem caseA_value (c : Dev nD) (i : grid1.Coords) (a1 : Memref sig .tc .vmem S1x1x526x526 .f32) (h1 : a1.IsWhole)
    (a2 : Memref sig .tc .vmem S1x1x526x526 .f32) (h2 : a2.IsWhole) (a3 : Memref sig .tc .vmem S1x1 .f32) (h3 : a3.IsWhole)
    (hc : cond1_0 i) (x0 x1 : Vec F S1x1x526x526 .f32) :
    out1_A_2 c i a1 h1 a2 h2 a3 h3 hc x0 x1 = pointPay x0 x1 k1_pay2 := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1x1) zeros2]
  unfold pointPay
  simp only [View.readAt_eq_ld, h1.read_unread, h2.read_unread,
    View.ld_unit_zero (S := S1x1x526x526) zeros4, View.ld_unit_zero (S := S1x1) zeros2,
    View.readCov_unit_zero (S := S1x1) _ zeros2]

end Cases

variable (V : (c : Dev nD) → (b : Ref sig .tc) → Buf (Elt Ideal) ((c : Thread nD τ).loc b))

/-! ## Block t of each input is image t's padded map -/

/-- The first input's block index at point t is (t, 0, 0, 0). -/
theorem blockIndex0 : ∀ t : Fin grid1.N,
    win1_0.index t 0 = t.val ∧ win1_0.index t 1 = 0 ∧ win1_0.index t 2 = 0 ∧ win1_0.index t 3 = 0 := by
  decide +kernel
/-- The second input's block index at point t is (t, 0, 0, 0). -/
theorem blockIndex1 : ∀ t : Fin grid1.N,
    win1_1.index t 0 = t.val ∧ win1_1.index t 1 = 0 ∧ win1_1.index t 2 = 0 ∧ win1_1.index t 3 = 0 := by
  decide +kernel

/-- The first input's block at point t, as a tile, is image t's padded map: entry (0, 0, r, s) of the block is entry
    (t·1 + 0, 0·1 + 0, 0·526 + r, 0·526 + s) of the array. -/
theorem tileOf_block0 (c : Dev nD) (t : Fin cfg1.N) (t' : Fin 16) (ht : t'.val = t.val) :
    tileOf (iblk1 V c 0 t) = DarkChannel.tile (V c main_v1) t' := by
  obtain ⟨h0, h1, h2, h3⟩ := blockIndex0 t
  funext j
  unfold tileOf iblk1 DarkChannel.tile
  rw [View.read_apply]
  show V c main_v1 _ = V c main_v1 _
  congr 1
  funext a
  apply Fin.ext
  match a with
  | ⟨0, _⟩ => show win1_0.index t 0 * 1 + 1 * 0 = t'.val; rw [h0]; omega
  | ⟨1, _⟩ => show win1_0.index t 1 * 1 + 1 * 0 = 0; rw [h1]
  | ⟨2, _⟩ => show win1_0.index t 2 * 526 + 1 * (j 0).val = (j 0).val; rw [h2]; omega
  | ⟨3, _⟩ => show win1_0.index t 3 * 526 + 1 * (j 1).val = (j 1).val; rw [h3]; omega

/-- The same for the second input. -/
theorem tileOf_block1 (c : Dev nD) (t : Fin cfg1.N) (t' : Fin 16) (ht : t'.val = t.val) :
    tileOf (iblk1 V c 1 t) = DarkChannel.tile (V c main_v2) t' := by
  obtain ⟨h0, h1, h2, h3⟩ := blockIndex1 t
  funext j
  unfold tileOf iblk1 DarkChannel.tile
  rw [View.read_apply]
  show V c main_v2 _ = V c main_v2 _
  congr 1
  funext a
  apply Fin.ext
  match a with
  | ⟨0, _⟩ => show win1_1.index t 0 * 1 + 1 * 0 = t'.val; rw [h0]; omega
  | ⟨1, _⟩ => show win1_1.index t 1 * 1 + 1 * 0 = 0; rw [h1]
  | ⟨2, _⟩ => show win1_1.index t 2 * 526 + 1 * (j 0).val = (j 0).val; rw [h2]; omega
  | ⟨3, _⟩ => show win1_1.index t 3 * 526 + 1 * (j 1).val = (j 1).val; rw [h3]; omega

/-! ## The running total, by induction on the point -/

/-- What the result's staging buffer holds after point n is the running total after image n, at its one entry: zero
    plus image 0's share at point 0, one share more at each later point. -/
theorem outsAt1_eq_accLoss (c : Dev nD) : ∀ (n : ℕ) (hn : n < cfg1.N),
    outsAt1 V c n hn
      = fun _ => DarkChannel.accLoss (V c main_v1) (V c main_v2) n (lt_of_lt_of_eq hn (show cfg1.N = 16 from N_1))
  | 0, hn => by
    refine (outsAt1_A V c ⟨0, hn⟩ rfl).trans ?_
    refine (caseA_value c (grid1.coords ⟨0, hn⟩) (ms1_0 ⟨0, hn⟩) (hs1_0 ⟨0, hn⟩) (ms1_1 ⟨0, hn⟩) (hs1_1 ⟨0, hn⟩)
      (ms1_2 ⟨0, hn⟩) (hs1_2 ⟨0, hn⟩) ((hcond1_0 ⟨0, hn⟩).mpr rfl) (iblk1 V c 0 ⟨0, hn⟩) (iblk1 V c 1 ⟨0, hn⟩)).trans ?_
    funext u
    rw [pointPay_apply (iblk1 V c 0 ⟨0, hn⟩) (iblk1 V c 1 ⟨0, hn⟩) (k1_pay2 (F := Ideal)) u,
      tileOf_block0 V c ⟨0, hn⟩ ⟨0, lt_of_lt_of_eq hn (show cfg1.N = 16 from N_1)⟩ rfl,
      tileOf_block1 V c ⟨0, hn⟩ ⟨0, lt_of_lt_of_eq hn (show cfg1.N = 16 from N_1)⟩ rfl]
    rfl
  | n + 1, hn => by
    have hB : ¬(⟨n + 1, hn⟩ : Fin cfg1.N).val % 16 = 0 := by
      have hN : n + 1 < 16 := lt_of_lt_of_eq hn (show cfg1.N = 16 from N_1)
      dsimp only; omega
    have ih := outsAt1_eq_accLoss c n (Nat.lt_of_succ_lt hn)
    refine (outsAt1_B V c ⟨n + 1, hn⟩ hB).trans ?_
    show out1_B_2 c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (fun h => hB ((hcond1_0 ⟨n + 1, hn⟩).mp h)) (iblk1 V c 0 ⟨n + 1, hn⟩) (iblk1 V c 1 ⟨n + 1, hn⟩)
      (outsAt1 V c n (Nat.lt_of_succ_lt hn)) = _
    rw [ih]
    refine (caseB_value c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (fun h => hB ((hcond1_0 ⟨n + 1, hn⟩).mp h)) (iblk1 V c 0 ⟨n + 1, hn⟩) (iblk1 V c 1 ⟨n + 1, hn⟩)
      (fun _ => DarkChannel.accLoss (V c main_v1) (V c main_v2) n
        (lt_of_lt_of_eq (Nat.lt_of_succ_lt hn) (show cfg1.N = 16 from N_1)))).trans ?_
    funext u
    rw [pointPay_apply (iblk1 V c 0 ⟨n + 1, hn⟩) (iblk1 V c 1 ⟨n + 1, hn⟩) _ u,
      tileOf_block0 V c ⟨n + 1, hn⟩ ⟨n + 1, lt_of_lt_of_eq hn (show cfg1.N = 16 from N_1)⟩ rfl,
      tileOf_block1 V c ⟨n + 1, hn⟩ ⟨n + 1, lt_of_lt_of_eq hn (show cfg1.N = 16 from N_1)⟩ rfl]
    rfl

/-! ## The result array: the last point's write-back covers it -/

/-- The running total after the last image, as contents of the [1, 1] result array. -/
abbrev finalTotal (c : Dev nD) : Buf (Elt Ideal) ((c : Thread nD τ).loc main_v3) :=
  fun _ => DarkChannel.accLoss (V c main_v1) (V c main_v2) 15 (by decide)

/-- The one write-back, at point 15, writes it: the block at index (0, 0), read through zero offsets, is the whole
    [1, 1] array. -/
theorem flushed2_eq (c : Dev nD) (t : Fin cfg1.N) (hf : (cfg1.win 2).flush t = true) :
    (dat1 V c).flushed 2 t = ((cfg1.win 2).blk t).view.read (Elt Ideal) (finalTotal V c) := by
  have hN : cfg1.N = 16 := N_1
  have h15 : t.val = 15 := by have := (flush1_2 t).mp hf; have := t.isLt; omega
  obtain rfl : t = t1_15 := Fin.ext h15
  show (cfg1.win 2).cut (grid1.coords t1_15) ((dat1 V c).after 2 t1_15) = _
  rw [after1_2, outsAt1_eq_accLoss]
  have hz' : (fun a => win1_2.index t1_15 a * main_v3.ty.shape.size a) = fun _ => 0 :=
    funext fun a => by fin_cases a <;> decide
  exact (Memref.read_access_unit_zero (Elt Ideal) main_v3 hz' (fun a => by rw [congrFun hz' a]; simp) (finalTotal V c)).symm

theorem final2 (c : Dev nD) :
    (dat1 (F := Ideal) V c).arrAt 2 cfg1.N = fun _ => DarkChannel.accLoss (V c main_v1) (V c main_v2) 15 (by decide) := by
  refine (dat1 V c).arrAt_eq_of_cover 2 (finalTotal V c) (flushed2_eq V c) fun i => ⟨t1_15, (flush1_2 t1_15).mpr rfl, ?_⟩
  show i ∈ ((View.whole main_v3).slice (win1_2.rect t1_15)).set
  rw [View.set_slice_whole, Rect.mem_set_unit]
  intro a
  match a with
  | ⟨0, _⟩ =>
    have h0 : (i 0 : Nat) < 1 := (i 0).isLt
    show win1_2.index t1_15 0 * win1_2.size 0 ≤ (i 0 : Nat)
      ∧ (i 0 : Nat) < win1_2.index t1_15 0 * win1_2.size 0 + win1_2.xsize (grid1.coords t1_15) 0
    rw [show win1_2.index t1_15 0 * win1_2.size 0 = 0 from by decide +kernel,
      show win1_2.xsize (grid1.coords t1_15) 0 = 1 from by decide +kernel]
    omega
  | ⟨1, _⟩ =>
    have h1 : (i 1 : Nat) < 1 := (i 1).isLt
    show win1_2.index t1_15 1 * win1_2.size 1 ≤ (i 1 : Nat)
      ∧ (i 1 : Nat) < win1_2.index t1_15 1 * win1_2.size 1 + win1_2.xsize (grid1.coords t1_15) 1
    rw [show win1_2.index t1_15 1 * win1_2.size 1 = 0 from by decide +kernel,
      show win1_2.xsize (grid1.coords t1_15) 1 = 1 from by decide +kernel]
    omega

end Cert.KernelIdeal.Reg1

end
-- ==== Proof.KernelValue.lean ====
/-
  The kernel program's result as a function of its two arguments, at the extended reals: the first kernel leaves the two
  channel-minimum maps; the host operations between the kernels reflect-pad each of them; the second kernel leaves the
  running total of the squared differences of the clamped window minima after the last image; the host divides by 2^22.
-/
import proofs.«110682_j16363825398434_1_alg».proof.Defs
import proofs.«110682_j16363825398434_1_alg».proof.Proof.KernelRun
import proofs.«110682_j16363825398434_1_alg».proof.Proof.Spec
import proofs.«110682_j16363825398434_1_alg».proof.Proof.Reg0Value
import proofs.«110682_j16363825398434_1_alg».proof.Proof.Reg1Value
import Idealize.ShloMosaic.Lib.StableHlo.Run
import Idealize.ShloMosaic.Lib.Pipeline.Value

set_option maxRecDepth 16384

noncomputable section

namespace Cert.KernelIdeal.Launched

open Idealize.ShloMosaic Idealize.ShloMosaic.TcCoe Idealize.SL.Sem Idealize.ShloMosaic.ValueIdx
open Cert.KernelIdeal Cert.KernelIdeal.Gen

/-! ## The padding between the kernels, as one function -/

section Pad
variable {F : FTy → Type} [FloatOps F]

/-- Seven reflected rows above. -/
def padTop (x : FVec F S16x1x512x512 .f32) : FVec F S16x1x519x512 .f32 :=
  concatenate S16x1x519x512 2
    [⟨S16x1x7x512, Host.reverse [2] (extractStridedSlice S16x1x7x512 ![0, 0, 1, 0] x Gen.slices_S16x1x512x512_S16x1x7x512_0_0_1_0)⟩,
     ⟨S16x1x512x512, x⟩] Gen.concatenates_S16x1x7x512_S16x1x512x512_S16x1x519x512_d2

/-- Seven reflected rows below. -/
def padRows (x : FVec F S16x1x512x512 .f32) : FVec F S16x1x526x512 .f32 :=
  concatenate S16x1x526x512 2
    [⟨S16x1x519x512, padTop x⟩,
     ⟨S16x1x7x512, Host.reverse [2] (extractStridedSlice S16x1x7x512 ![0, 0, 511, 0] (padTop x) Gen.slices_S16x1x519x512_S16x1x7x512_0_0_511_0)⟩]
    Gen.concatenates_S16x1x519x512_S16x1x7x512_S16x1x526x512_d2

/-- Seven reflected columns on the left. -/
def padLeft (x : FVec F S16x1x512x512 .f32) : FVec F S16x1x526x519 .f32 :=
  concatenate S16x1x526x519 3
    [⟨S16x1x526x7, Host.reverse [3] (extractStridedSlice S16x1x526x7 ![0, 0, 0, 1] (padRows x) Gen.slices_S16x1x526x512_S16x1x526x7_0_0_0_1)⟩,
     ⟨S16x1x526x512, padRows x⟩] Gen.concatenates_S16x1x526x7_S16x1x526x512_S16x1x526x519_d3

/-- The reflect padding by seven on every side of the two image axes. -/
def reflectPad (x : FVec F S16x1x512x512 .f32) : FVec F S16x1x526x526 .f32 :=
  concatenate S16x1x526x526 3
    [⟨S16x1x526x519, padLeft x⟩,
     ⟨S16x1x526x7, Host.reverse [3] (extractStridedSlice S16x1x526x7 ![0, 0, 0, 511] (padLeft x) Gen.slices_S16x1x526x519_S16x1x526x7_0_0_0_511)⟩]
    Gen.concatenates_S16x1x526x519_S16x1x526x7_S16x1x526x526_d3

attribute [local irreducible] concatenate Host.reverse extractStridedSlice in
set_option maxHeartbeats 1000000 in
/-- The sixteen operations padding the first map leave the padded map in `main_v1`. -/
theorem padded_v1 (W : Valuation τ sig (Elt F)) :
    StableHlo.after hostOps1_1 W (Proc.devRef .tc main_v1) = reflectPad (W (Proc.devRef .tc main_v0_0)) := by
  unfold reflectPad padLeft padRows padTop
  after_results_simp
  simp only [StableHlo.TRef.ofBuf, StableHlo.TRef.toBuf, cast_eq]
  rfl

attribute [local irreducible] concatenate Host.reverse extractStridedSlice in
set_option maxHeartbeats 1000000 in
/-- The sixteen operations padding the second map leave the padded map in `main_v2`. -/
theorem padded_v2 (W : Valuation τ sig (Elt F)) :
    StableHlo.after hostOps1_3 W (Proc.devRef .tc main_v2) = reflectPad (W (Proc.devRef .tc main_v0_1)) := by
  unfold reflectPad padLeft padRows padTop
  after_results_simp
  simp only [StableHlo.TRef.ofBuf, StableHlo.TRef.toBuf, cast_eq]
  rfl

end Pad

/-! ## The buffers at the boundaries between @main's stretches -/

section Value

variable (m : (ℓ : Loc nD τ sig) → Buf (Elt Ideal) ℓ) (ρ : Dev nD → PrngReg)

/-- A stretch of host operations leaves a buffer none of them writes as it was. -/
local macro "keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- After the first kernel its first result array is the channel-minimum map of the first argument. -/
theorem minmap0 (c : Dev nD) :
    W1 m ρ c (Proc.devRef .tc main_v0_0) = DarkChannel.channelMinK (m ((c : Thread nD τ).loc main_arg0)) :=
  (W1_arr m ρ c 2).trans (Reg0.final2 (V0 m ρ) c)

/-- After the first kernel its second result array is the channel-minimum map of the second argument. -/
theorem minmap1 (c : Dev nD) :
    W1 m ρ c (Proc.devRef .tc main_v0_1) = DarkChannel.channelMinK (m ((c : Thread nD τ).loc main_arg1)) :=
  (W1_arr m ρ c 3).trans (Reg0.final3 (V0 m ρ) c)

/-- When the second kernel is entered its first operand is the padded channel-minimum map of the first argument. -/
theorem padded0 (c : Dev nD) :
    W5 m ρ c (Proc.devRef .tc main_v1) = reflectPad (F := Ideal) (DarkChannel.channelMinK (m ((c : Thread nD τ).loc main_arg0))) :=
  by
  have e1 : W5 m ρ c (Proc.devRef .tc main_v1) = W4 m ρ c (Proc.devRef .tc main_v1) := by keeps hostOps1_3
  have e2 : W4 m ρ c (Proc.devRef .tc main_v1) = W3 m ρ c (Proc.devRef .tc main_v1) := by keeps hostOps1_2
  have e3 : W3 m ρ c (Proc.devRef .tc main_v1) = reflectPad (F := Ideal) (W2 m ρ c (Proc.devRef .tc main_v0_0)) := padded_v1 (F := Ideal) (W2 m ρ c)
  have e4 : W2 m ρ c (Proc.devRef .tc main_v0_0) = W1 m ρ c (Proc.devRef .tc main_v0_0) := by keeps hostOps1
  rw [e1, e2, e3, e4, minmap0 m ρ c]

/-- When the second kernel is entered its second operand is the padded channel-minimum map of the second argument. -/
theorem padded1 (c : Dev nD) :
    W5 m ρ c (Proc.devRef .tc main_v2) = reflectPad (F := Ideal) (DarkChannel.channelMinK (m ((c : Thread nD τ).loc main_arg1))) :=
  by
  have e1 : W5 m ρ c (Proc.devRef .tc main_v2) = reflectPad (F := Ideal) (W4 m ρ c (Proc.devRef .tc main_v0_1)) := padded_v2 (F := Ideal) (W4 m ρ c)
  have e2 : W4 m ρ c (Proc.devRef .tc main_v0_1) = W3 m ρ c (Proc.devRef .tc main_v0_1) := by keeps hostOps1_2
  have e3 : W3 m ρ c (Proc.devRef .tc main_v0_1) = W2 m ρ c (Proc.devRef .tc main_v0_1) := by keeps hostOps1_1
  have e4 : W2 m ρ c (Proc.devRef .tc main_v0_1) = W1 m ρ c (Proc.devRef .tc main_v0_1) := by keeps hostOps1
  rw [e1, e2, e3, e4, minmap1 m ρ c]

/-- After the second kernel its result array holds the running total after the last image. -/
theorem total (c : Dev nD) :
    W6 m ρ c (Proc.devRef .tc main_v3)
      = fun _ => DarkChannel.accLoss (reflectPad (F := Ideal) (DarkChannel.channelMinK (m ((c : Thread nD τ).loc main_arg0))))
          (reflectPad (F := Ideal) (DarkChannel.channelMinK (m ((c : Thread nD τ).loc main_arg1)))) 15 (by decide) := by
  refine (W6_arr m ρ c 2).trans ((Reg1.final2 (V5 m ρ) c).trans ?_)
  show (fun _ => DarkChannel.accLoss (W5 m ρ c (Proc.devRef .tc main_v1)) (W5 m ρ c (Proc.devRef .tc main_v2)) 15 _) = _
  rw [padded0 m ρ c, padded1 m ρ c]

/-- The program's result: the pointwise form of the loss of the two arguments. -/
theorem result_eq (c : Dev nD) :
    W7 m ρ c (Proc.devRef .tc main_v5)
      = DarkChannel.lossK (reflectPad (F := Ideal)) (m ((c : Thread nD τ).loc main_arg0)) (m ((c : Thread nD τ).loc main_arg1)) := by
  show StableHlo.after hostOps2 (W6 m ρ c) (Proc.devRef .tc main_v5) = _
  after_results_simp
  rw [total m ρ c]
  rfl

/-- Every weakly fair execution of the kernel program terminates with its result at the pointwise form of the loss of
    the two arguments, the arguments unchanged. -/
theorem run :
    θ_run defs (onTc (τ := τ) (main (F := Ideal))) ⟨m, fun _ => 0, ρ⟩ fun r => ∀ c : Dev nD,
      r.2.mem ((c.tc : Thread nD τ).loc main_v5)
          = DarkChannel.lossK (reflectPad (F := Ideal)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq m ρ c), (h c).2⟩) (run_result m ρ)

end Value

end Cert.KernelIdeal.Launched

end
-- ==== Proof.RefRun.lean ====
/-
  The reference's run: its @main is one straight line of host operations once the calls to the padding, the flips and the
  clamp are unfolded at their call sites, and the result buffer ends at the array form of the loss of the two arguments.
-/
import proofs.«110682_j16363825398434_1_alg».proof.Defs
import proofs.«110682_j16363825398434_1_alg».proof.Proof.Gen.ReferenceIdeal
import proofs.«110682_j16363825398434_1_alg».proof.Proof.Spec
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Gen

variable {F : FTy → Type} [FloatOps F]

/-- Seven reflected rows above. -/
def padTop (x : FVec F S16x1x512x512 .f32) : FVec F S16x1x519x512 .f32 :=
  concatenate S16x1x519x512 2
    [⟨S16x1x7x512, Host.reverse [2] (extractStridedSlice S16x1x7x512 ![0, 0, 1, 0] x Gen.slices_S16x1x512x512_S16x1x7x512_0_0_1_0)⟩,
     ⟨S16x1x512x512, x⟩] Gen.concatenates_S16x1x7x512_S16x1x512x512_S16x1x519x512_d2

/-- Seven reflected rows below. -/
def padRows (x : FVec F S16x1x512x512 .f32) : FVec F S16x1x526x512 .f32 :=
  concatenate S16x1x526x512 2
    [⟨S16x1x519x512, padTop x⟩,
     ⟨S16x1x7x512, Host.reverse [2] (extractStridedSlice S16x1x7x512 ![0, 0, 511, 0] (padTop x) Gen.slices_S16x1x519x512_S16x1x7x512_0_0_511_0)⟩]
    Gen.concatenates_S16x1x519x512_S16x1x7x512_S16x1x526x512_d2

/-- Seven reflected columns on the left. -/
def padLeft (x : FVec F S16x1x512x512 .f32) : FVec F S16x1x526x519 .f32 :=
  concatenate S16x1x526x519 3
    [⟨S16x1x526x7, Host.reverse [3] (extractStridedSlice S16x1x526x7 ![0, 0, 0, 1] (padRows x) Gen.slices_S16x1x526x512_S16x1x526x7_0_0_0_1)⟩,
     ⟨S16x1x526x512, padRows x⟩] Gen.concatenates_S16x1x526x7_S16x1x526x512_S16x1x526x519_d3

/-- The reflect padding by seven on every side of the two image axes. -/
def reflectPad (x : FVec F S16x1x512x512 .f32) : FVec F S16x1x526x526 .f32 :=
  concatenate S16x1x526x526 3
    [⟨S16x1x526x519, padLeft x⟩,
     ⟨S16x1x526x7, Host.reverse [3] (extractStridedSlice S16x1x526x7 ![0, 0, 0, 511] (padLeft x) Gen.slices_S16x1x526x519_S16x1x526x7_0_0_0_511)⟩]
    Gen.concatenates_S16x1x526x519_S16x1x526x7_S16x1x526x526_d3

/-- @main's eighty operations in order, the calls unfolded at their sites: per argument the shift and halving (six), the
    channel minimum and its broadcast (three), the padding's unused integer operand (one), the padding's sixteen (four
    rounds of slice, slice, reverse, concatenate), the window minimum (three), the clamp's two bounds and its six; then
    the difference, its square, the sum from zero and the division by the count (six). -/
abbrev ops : List (HloOp τ sig (Elt F)) :=
  [ nullary main_cst (constant S_ .f32 0x3F800000#32),
    unary main_cst main_v0 (broadcastInDim S16x3x512x512 ![] bcast_S_S16x3x512x512 : (⟨S_, .f32⟩ : BufTy).Contents (Elt F) → (⟨S16x3x512x512, .f32⟩ : BufTy).Contents (Elt F)),
    binary main_arg0 main_v0 main_v1 (addf : (⟨S16x3x512x512, .f32⟩ : BufTy).Contents (Elt F) → (⟨S16x3x512x512, .f32⟩ : BufTy).Contents (Elt F) → (⟨S16x3x512x512, .f32⟩ : BufTy).Contents (Elt F)),
    nullary main_cst_0 (constant S_ .f32 0x40000000#32),
    unary main_cst_0 main_v2 (broadcastInDim S16x3x512x512 ![] bcast_S_S16x3x512x512 : (⟨S_, .f32⟩ : BufTy).Contents (Elt F) → (⟨S16x3x512x512, .f32⟩ : BufTy).Contents (Elt F)),
    binary main_v1 main_v2 main_v3 (Host.divf : (⟨S16x3x512x512, .f32⟩ : BufTy).Contents (Elt F) → (⟨S16x3x512x512, .f32⟩ : BufTy).Contents (Elt F) → (⟨S16x3x512x512, .f32⟩ : BufTy).Contents (Elt F)),
    nullary main_cst_1 (constant S_ .f32 0x7F800000#32),
    binary main_v3 main_cst_1 main_v4 ((fun x v => Host.reduce FloatOps.minimumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
    unary main_v4 main_v5 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    nullary main_c (constantI S_ 32 0#32),
    TRef.unary (.of main_v5 : TRef sig ⟨S16x1x512x512, .f32⟩) main_call0.v0 (extractStridedSlice S16x1x1x512 ![0, 0, 0, 0] · slices_S16x1x512x512_S16x1x1x512_0_0_0_0),
    TRef.unary (.of main_v5 : TRef sig ⟨S16x1x512x512, .f32⟩) main_call0.v1 (extractStridedSlice S16x1x7x512 ![0, 0, 1, 0] · slices_S16x1x512x512_S16x1x7x512_0_0_1_0),
    TRef.unary main_call0.v1 main_call0.call0.v0 (Host.reverse [2]),
    TRef.binary main_call0.call0.v0 (.of main_v5 : TRef sig ⟨S16x1x512x512, .f32⟩) main_call0.v3 (fun a b => concatenate S16x1x519x512 2 [⟨S16x1x7x512, a⟩, ⟨S16x1x512x512, b⟩] concatenates_S16x1x7x512_S16x1x512x512_S16x1x519x512_d2),
    TRef.unary main_call0.v3 main_call0.v4 (extractStridedSlice S16x1x1x512 ![0, 0, 518, 0] · slices_S16x1x519x512_S16x1x1x512_0_0_518_0),
    TRef.unary main_call0.v3 main_call0.v5 (extractStridedSlice S16x1x7x512 ![0, 0, 511, 0] · slices_S16x1x519x512_S16x1x7x512_0_0_511_0),
    TRef.unary main_call0.v5 main_call0.call1.v0 (Host.reverse [2]),
    TRef.binary main_call0.v3 main_call0.call1.v0 main_call0.v7 (fun a b => concatenate S16x1x526x512 2 [⟨S16x1x519x512, a⟩, ⟨S16x1x7x512, b⟩] concatenates_S16x1x519x512_S16x1x7x512_S16x1x526x512_d2),
    TRef.unary main_call0.v7 main_call0.v8 (extractStridedSlice S16x1x526x1 ![0, 0, 0, 0] · slices_S16x1x526x512_S16x1x526x1_0_0_0_0),
    TRef.unary main_call0.v7 main_call0.v9 (extractStridedSlice S16x1x526x7 ![0, 0, 0, 1] · slices_S16x1x526x512_S16x1x526x7_0_0_0_1),
    TRef.unary main_call0.v9 main_call0.call2.v0 (Host.reverse [3]),
    TRef.binary main_call0.call2.v0 main_call0.v7 main_call0.v11 (fun a b => concatenate S16x1x526x519 3 [⟨S16x1x526x7, a⟩, ⟨S16x1x526x512, b⟩] concatenates_S16x1x526x7_S16x1x526x512_S16x1x526x519_d3),
    TRef.unary main_call0.v11 main_call0.v12 (extractStridedSlice S16x1x526x1 ![0, 0, 0, 518] · slices_S16x1x526x519_S16x1x526x1_0_0_0_518),
    TRef.unary main_call0.v11 main_call0.v13 (extractStridedSlice S16x1x526x7 ![0, 0, 0, 511] · slices_S16x1x526x519_S16x1x526x7_0_0_0_511),
    TRef.unary main_call0.v13 main_call0.call3.v0 (Host.reverse [3]),
    TRef.binary main_call0.v11 main_call0.call3.v0 main_call0.v15 (fun a b => concatenate S16x1x526x526 3 [⟨S16x1x526x519, a⟩, ⟨S16x1x526x7, b⟩] concatenates_S16x1x526x519_S16x1x526x7_S16x1x526x526_d3),
    nullary main_cst_2 (constant S_ .f32 0x7F800000#32),
    unary main_cst_2 main_v7 (broadcastInDim S_ ![] bcast_S_S_ : (⟨S_, .f32⟩ : BufTy).Contents (Elt F) → (⟨S_, .f32⟩ : BufTy).Contents (Elt F)),
    binary main_v6 main_v7 main_v8 ((fun x v => Host.reduceWindow FloatOps.minimumf ![1, 1, 15, 15] ![1, 1, 1, 1] ![0, 0, 0, 0] ![0, 0, 0, 0] x v reduceWindows_S16x1x526x526_S16x1x512x512_w1s1p0_0_w1s1p0_0_w15s1p0_0_w15s1p0_0 h_S_) : (⟨S16x1x526x526, .f32⟩ : BufTy).Contents (Elt F) → (⟨S_, .f32⟩ : BufTy).Contents (Elt F) → (⟨S16x1x512x512, .f32⟩ : BufTy).Contents (Elt F)),
    nullary main_cst_3 (constant S_ .f32 0x00000000#32),
    nullary main_cst_4 (constant S_ .f32 0x3DCCCCCD#32),
    TRef.unary (.of main_cst_3 : TRef sig ⟨S_, .f32⟩) main_call1.v0 id,
    TRef.unary main_call1.v0 main_call1.v1 (broadcastInDim S16x1x512x512 ![] bcast_S_S16x1x512x512),
    TRef.binary main_call1.v1 (.of main_v8 : TRef sig ⟨S16x1x512x512, .f32⟩) main_call1.v2 maximumf,
    TRef.unary (.of main_cst_4 : TRef sig ⟨S_, .f32⟩) main_call1.v3 id,
    TRef.unary main_call1.v3 main_call1.v4 (broadcastInDim S16x1x512x512 ![] bcast_S_S16x1x512x512),
    TRef.binary main_call1.v4 main_call1.v2 main_call1.v5 minimumf,
    nullary main_cst_5 (constant S_ .f32 0x3F800000#32),
    unary main_cst_5 main_v10 (broadcastInDim S16x3x512x512 ![] bcast_S_S16x3x512x512 : (⟨S_, .f32⟩ : BufTy).Contents (Elt F) → (⟨S16x3x512x512, .f32⟩ : BufTy).Contents (Elt F)),
    binary main_arg1 main_v10 main_v11 (addf : (⟨S16x3x512x512, .f32⟩ : BufTy).Contents (Elt F) → (⟨S16x3x512x512, .f32⟩ : BufTy).Contents (Elt F) → (⟨S16x3x512x512, .f32⟩ : BufTy).Contents (Elt F)),
    nullary main_cst_6 (constant S_ .f32 0x40000000#32),
    unary main_cst_6 main_v12 (broadcastInDim S16x3x512x512 ![] bcast_S_S16x3x512x512 : (⟨S_, .f32⟩ : BufTy).Contents (Elt F) → (⟨S16x3x512x512, .f32⟩ : BufTy).Contents (Elt F)),
    binary main_v11 main_v12 main_v13 (Host.divf : (⟨S16x3x512x512, .f32⟩ : BufTy).Contents (Elt F) → (⟨S16x3x512x512, .f32⟩ : BufTy).Contents (Elt F) → (⟨S16x3x512x512, .f32⟩ : BufTy).Contents (Elt F)),
    nullary main_cst_7 (constant S_ .f32 0x7F800000#32),
    binary main_v13 main_cst_7 main_v14 ((fun x v => Host.reduce FloatOps.minimumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
    unary main_v14 main_v15 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    nullary main_c_8 (constantI S_ 32 0#32),
    TRef.unary (.of main_v15 : TRef sig ⟨S16x1x512x512, .f32⟩) main_call2.v0 (extractStridedSlice S16x1x1x512 ![0, 0, 0, 0] · slices_S16x1x512x512_S16x1x1x512_0_0_0_0),
    TRef.unary (.of main_v15 : TRef sig ⟨S16x1x512x512, .f32⟩) main_call2.v1 (extractStridedSlice S16x1x7x512 ![0, 0, 1, 0] · slices_S16x1x512x512_S16x1x7x512_0_0_1_0),
    TRef.unary main_call2.v1 main_call2.call0.v0 (Host.reverse [2]),
    TRef.binary main_call2.call0.v0 (.of main_v15 : TRef sig ⟨S16x1x512x512, .f32⟩) main_call2.v3 (fun a b => concatenate S16x1x519x512 2 [⟨S16x1x7x512, a⟩, ⟨S16x1x512x512, b⟩] concatenates_S16x1x7x512_S16x1x512x512_S16x1x519x512_d2),
    TRef.unary main_call2.v3 main_call2.v4 (extractStridedSlice S16x1x1x512 ![0, 0, 518, 0] · slices_S16x1x519x512_S16x1x1x512_0_0_518_0),
    TRef.unary main_call2.v3 main_call2.v5 (extractStridedSlice S16x1x7x512 ![0, 0, 511, 0] · slices_S16x1x519x512_S16x1x7x512_0_0_511_0),
    TRef.unary main_call2.v5 main_call2.call1.v0 (Host.reverse [2]),
    TRef.binary main_call2.v3 main_call2.call1.v0 main_call2.v7 (fun a b => concatenate S16x1x526x512 2 [⟨S16x1x519x512, a⟩, ⟨S16x1x7x512, b⟩] concatenates_S16x1x519x512_S16x1x7x512_S16x1x526x512_d2),
    TRef.unary main_call2.v7 main_call2.v8 (extractStridedSlice S16x1x526x1 ![0, 0, 0, 0] · slices_S16x1x526x512_S16x1x526x1_0_0_0_0),
    TRef.unary main_call2.v7 main_call2.v9 (extractStridedSlice S16x1x526x7 ![0, 0, 0, 1] · slices_S16x1x526x512_S16x1x526x7_0_0_0_1),
    TRef.unary main_call2.v9 main_call2.call2.v0 (Host.reverse [3]),
    TRef.binary main_call2.call2.v0 main_call2.v7 main_call2.v11 (fun a b => concatenate S16x1x526x519 3 [⟨S16x1x526x7, a⟩, ⟨S16x1x526x512, b⟩] concatenates_S16x1x526x7_S16x1x526x512_S16x1x526x519_d3),
    TRef.unary main_call2.v11 main_call2.v12 (extractStridedSlice S16x1x526x1 ![0, 0, 0, 518] · slices_S16x1x526x519_S16x1x526x1_0_0_0_518),
    TRef.unary main_call2.v11 main_call2.v13 (extractStridedSlice S16x1x526x7 ![0, 0, 0, 511] · slices_S16x1x526x519_S16x1x526x7_0_0_0_511),
    TRef.unary main_call2.v13 main_call2.call3.v0 (Host.reverse [3]),
    TRef.binary main_call2.v11 main_call2.call3.v0 main_call2.v15 (fun a b => concatenate S16x1x526x526 3 [⟨S16x1x526x519, a⟩, ⟨S16x1x526x7, b⟩] concatenates_S16x1x526x519_S16x1x526x7_S16x1x526x526_d3),
    nullary main_cst_9 (constant S_ .f32 0x7F800000#32),
    unary main_cst_9 main_v17 (broadcastInDim S_ ![] bcast_S_S_ : (⟨S_, .f32⟩ : BufTy).Contents (Elt F) → (⟨S_, .f32⟩ : BufTy).Contents (Elt F)),
    binary main_v16 main_v17 main_v18 ((fun x v => Host.reduceWindow FloatOps.minimumf ![1, 1, 15, 15] ![1, 1, 1, 1] ![0, 0, 0, 0] ![0, 0, 0, 0] x v reduceWindows_S16x1x526x526_S16x1x512x512_w1s1p0_0_w1s1p0_0_w15s1p0_0_w15s1p0_0 h_S_) : (⟨S16x1x526x526, .f32⟩ : BufTy).Contents (Elt F) → (⟨S_, .f32⟩ : BufTy).Contents (Elt F) → (⟨S16x1x512x512, .f32⟩ : BufTy).Contents (Elt F)),
    nullary main_cst_10 (constant S_ .f32 0x00000000#32),
    nullary main_cst_11 (constant S_ .f32 0x3DCCCCCD#32),
    TRef.unary (.of main_cst_10 : TRef sig ⟨S_, .f32⟩) main_call3.v0 id,
    TRef.unary main_call3.v0 main_call3.v1 (broadcastInDim S16x1x512x512 ![] bcast_S_S16x1x512x512),
    TRef.binary main_call3.v1 (.of main_v18 : TRef sig ⟨S16x1x512x512, .f32⟩) main_call3.v2 maximumf,
    TRef.unary (.of main_cst_11 : TRef sig ⟨S_, .f32⟩) main_call3.v3 id,
    TRef.unary main_call3.v3 main_call3.v4 (broadcastInDim S16x1x512x512 ![] bcast_S_S16x1x512x512),
    TRef.binary main_call3.v4 main_call3.v2 main_call3.v5 minimumf,
    binary main_v9 main_v19 main_v20 (subf : (⟨S16x1x512x512, .f32⟩ : BufTy).Contents (Elt F) → (⟨S16x1x512x512, .f32⟩ : BufTy).Contents (Elt F) → (⟨S16x1x512x512, .f32⟩ : BufTy).Contents (Elt F)),
    binary main_v20 main_v20 main_v21 (mulf : (⟨S16x1x512x512, .f32⟩ : BufTy).Contents (Elt F) → (⟨S16x1x512x512, .f32⟩ : BufTy).Contents (Elt F) → (⟨S16x1x512x512, .f32⟩ : BufTy).Contents (Elt F)),
    nullary main_cst_12 (constant S_ .f32 0x00000000#32),
    binary main_v21 main_cst_12 main_v22 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    nullary main_cst_13 (constant S_ .f32 0x4A800000#32),
    binary main_v22 main_cst_13 main_v23 (Host.divf : (⟨S_, .f32⟩ : BufTy).Contents (Elt F) → (⟨S_, .f32⟩ : BufTy).Contents (Elt F) → (⟨S_, .f32⟩ : BufTy).Contents (Elt F)) ]

-- eighty binds re-associated: the rewrite under the chain recurses once per statement
set_option maxRecDepth 4096 in
set_option maxHeartbeats 4000000 in
/-- @main is that straight line: the callees' bodies unfolded at their calls and the records at their fields, both
    sides are one chain of steps once sequencing is re-associated. -/
theorem main_eq (c : Dev nD) : main (F := F) c = seq ops := by
  simp only [main, fn_pad.body, fn_flip.body, fn_flip_0.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., binary_bufs_sub .., unary_bufs_sub .., nullary_bufs_sub .., unary_bufs_sub .., unary_bufs_sub ..,
    unary_bufs_sub .., binary_bufs_sub .., unary_bufs_sub .., unary_bufs_sub .., unary_bufs_sub .., binary_bufs_sub ..,
    unary_bufs_sub .., unary_bufs_sub .., unary_bufs_sub .., binary_bufs_sub .., unary_bufs_sub .., unary_bufs_sub ..,
    unary_bufs_sub .., binary_bufs_sub .., nullary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., nullary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., unary_bufs_sub .., binary_bufs_sub .., unary_bufs_sub ..,
    unary_bufs_sub .., unary_bufs_sub .., binary_bufs_sub .., nullary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., binary_bufs_sub .., binary_bufs_sub .., nullary_bufs_sub .., binary_bufs_sub ..,
    nullary_bufs_sub .., binary_bufs_sub ..⟩

set_option maxRecDepth 8192 in
/-- No operation of the line writes the first argument. -/
theorem arg0_eq (V : Valuation τ sig (Elt F)) :
    after ops V (main_arg0 : DevRef τ sig) = V (main_arg0 : DevRef τ sig) := by
  simp only [after_cons, after_nil]
  rfl

set_option maxRecDepth 8192 in
/-- No operation of the line writes the second argument. -/
theorem arg1_eq (V : Valuation τ sig (Elt F)) :
    after ops V (main_arg1 : DevRef τ sig) = V (main_arg1 : DevRef τ sig) := by
  simp only [after_cons, after_nil]
  rfl

/-- The fold over two lines run one after the other is the second line's fold over the first's. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- The first argument's channel minimum: the shift, the halving, the minimum over the channels, the channel axis put back; then the padding's unused integer operand. -/
abbrev opsA : List (HloOp τ sig (Elt F)) :=
  [ nullary main_cst (constant S_ .f32 0x3F800000#32),
    unary main_cst main_v0 (broadcastInDim S16x3x512x512 ![] bcast_S_S16x3x512x512 : (⟨S_, .f32⟩ : BufTy).Contents (Elt F) → (⟨S16x3x512x512, .f32⟩ : BufTy).Contents (Elt F)),
    binary main_arg0 main_v0 main_v1 (addf : (⟨S16x3x512x512, .f32⟩ : BufTy).Contents (Elt F) → (⟨S16x3x512x512, .f32⟩ : BufTy).Contents (Elt F) → (⟨S16x3x512x512, .f32⟩ : BufTy).Contents (Elt F)),
    nullary main_cst_0 (constant S_ .f32 0x40000000#32),
    unary main_cst_0 main_v2 (broadcastInDim S16x3x512x512 ![] bcast_S_S16x3x512x512 : (⟨S_, .f32⟩ : BufTy).Contents (Elt F) → (⟨S16x3x512x512, .f32⟩ : BufTy).Contents (Elt F)),
    binary main_v1 main_v2 main_v3 (Host.divf : (⟨S16x3x512x512, .f32⟩ : BufTy).Contents (Elt F) → (⟨S16x3x512x512, .f32⟩ : BufTy).Contents (Elt F) → (⟨S16x3x512x512, .f32⟩ : BufTy).Contents (Elt F)),
    nullary main_cst_1 (constant S_ .f32 0x7F800000#32),
    binary main_v3 main_cst_1 main_v4 ((fun x v => Host.reduce FloatOps.minimumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
    unary main_v4 main_v5 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    nullary main_c (constantI S_ 32 0#32) ]

/-- The first argument's padding: four rounds of slice, slice, reverse, concatenate. -/
abbrev opsP0 : List (HloOp τ sig (Elt F)) :=
  [ TRef.unary (.of main_v5 : TRef sig ⟨S16x1x512x512, .f32⟩) main_call0.v0 (extractStridedSlice S16x1x1x512 ![0, 0, 0, 0] · slices_S16x1x512x512_S16x1x1x512_0_0_0_0),
    TRef.unary (.of main_v5 : TRef sig ⟨S16x1x512x512, .f32⟩) main_call0.v1 (extractStridedSlice S16x1x7x512 ![0, 0, 1, 0] · slices_S16x1x512x512_S16x1x7x512_0_0_1_0),
    TRef.unary main_call0.v1 main_call0.call0.v0 (Host.reverse [2]),
    TRef.binary main_call0.call0.v0 (.of main_v5 : TRef sig ⟨S16x1x512x512, .f32⟩) main_call0.v3 (fun a b => concatenate S16x1x519x512 2 [⟨S16x1x7x512, a⟩, ⟨S16x1x512x512, b⟩] concatenates_S16x1x7x512_S16x1x512x512_S16x1x519x512_d2),
    TRef.unary main_call0.v3 main_call0.v4 (extractStridedSlice S16x1x1x512 ![0, 0, 518, 0] · slices_S16x1x519x512_S16x1x1x512_0_0_518_0),
    TRef.unary main_call0.v3 main_call0.v5 (extractStridedSlice S16x1x7x512 ![0, 0, 511, 0] · slices_S16x1x519x512_S16x1x7x512_0_0_511_0),
    TRef.unary main_call0.v5 main_call0.call1.v0 (Host.reverse [2]),
    TRef.binary main_call0.v3 main_call0.call1.v0 main_call0.v7 (fun a b => concatenate S16x1x526x512 2 [⟨S16x1x519x512, a⟩, ⟨S16x1x7x512, b⟩] concatenates_S16x1x519x512_S16x1x7x512_S16x1x526x512_d2),
    TRef.unary main_call0.v7 main_call0.v8 (extractStridedSlice S16x1x526x1 ![0, 0, 0, 0] · slices_S16x1x526x512_S16x1x526x1_0_0_0_0),
    TRef.unary main_call0.v7 main_call0.v9 (extractStridedSlice S16x1x526x7 ![0, 0, 0, 1] · slices_S16x1x526x512_S16x1x526x7_0_0_0_1),
    TRef.unary main_call0.v9 main_call0.call2.v0 (Host.reverse [3]),
    TRef.binary main_call0.call2.v0 main_call0.v7 main_call0.v11 (fun a b => concatenate S16x1x526x519 3 [⟨S16x1x526x7, a⟩, ⟨S16x1x526x512, b⟩] concatenates_S16x1x526x7_S16x1x526x512_S16x1x526x519_d3),
    TRef.unary main_call0.v11 main_call0.v12 (extractStridedSlice S16x1x526x1 ![0, 0, 0, 518] · slices_S16x1x526x519_S16x1x526x1_0_0_0_518),
    TRef.unary main_call0.v11 main_call0.v13 (extractStridedSlice S16x1x526x7 ![0, 0, 0, 511] · slices_S16x1x526x519_S16x1x526x7_0_0_0_511),
    TRef.unary main_call0.v13 main_call0.call3.v0 (Host.reverse [3]),
    TRef.binary main_call0.v11 main_call0.call3.v0 main_call0.v15 (fun a b => concatenate S16x1x526x526 3 [⟨S16x1x526x519, a⟩, ⟨S16x1x526x7, b⟩] concatenates_S16x1x526x519_S16x1x526x7_S16x1x526x526_d3) ]

/-- The first argument's window minimum from +infinity, then the clamp's two bounds and its six operations. -/
abbrev opsE0 : List (HloOp τ sig (Elt F)) :=
  [ nullary main_cst_2 (constant S_ .f32 0x7F800000#32),
    unary main_cst_2 main_v7 (broadcastInDim S_ ![] bcast_S_S_ : (⟨S_, .f32⟩ : BufTy).Contents (Elt F) → (⟨S_, .f32⟩ : BufTy).Contents (Elt F)),
    binary main_v6 main_v7 main_v8 ((fun x v => Host.reduceWindow FloatOps.minimumf ![1, 1, 15, 15] ![1, 1, 1, 1] ![0, 0, 0, 0] ![0, 0, 0, 0] x v reduceWindows_S16x1x526x526_S16x1x512x512_w1s1p0_0_w1s1p0_0_w15s1p0_0_w15s1p0_0 h_S_) : (⟨S16x1x526x526, .f32⟩ : BufTy).Contents (Elt F) → (⟨S_, .f32⟩ : BufTy).Contents (Elt F) → (⟨S16x1x512x512, .f32⟩ : BufTy).Contents (Elt F)),
    nullary main_cst_3 (constant S_ .f32 0x00000000#32),
    nullary main_cst_4 (constant S_ .f32 0x3DCCCCCD#32),
    TRef.unary (.of main_cst_3 : TRef sig ⟨S_, .f32⟩) main_call1.v0 id,
    TRef.unary main_call1.v0 main_call1.v1 (broadcastInDim S16x1x512x512 ![] bcast_S_S16x1x512x512),
    TRef.binary main_call1.v1 (.of main_v8 : TRef sig ⟨S16x1x512x512, .f32⟩) main_call1.v2 maximumf,
    TRef.unary (.of main_cst_4 : TRef sig ⟨S_, .f32⟩) main_call1.v3 id,
    TRef.unary main_call1.v3 main_call1.v4 (broadcastInDim S16x1x512x512 ![] bcast_S_S16x1x512x512),
    TRef.binary main_call1.v4 main_call1.v2 main_call1.v5 minimumf ]

/-- The second argument's channel minimum, as the first's. -/
abbrev opsB : List (HloOp τ sig (Elt F)) :=
  [ nullary main_cst_5 (constant S_ .f32 0x3F800000#32),
    unary main_cst_5 main_v10 (broadcastInDim S16x3x512x512 ![] bcast_S_S16x3x512x512 : (⟨S_, .f32⟩ : BufTy).Contents (Elt F) → (⟨S16x3x512x512, .f32⟩ : BufTy).Contents (Elt F)),
    binary main_arg1 main_v10 main_v11 (addf : (⟨S16x3x512x512, .f32⟩ : BufTy).Contents (Elt F) → (⟨S16x3x512x512, .f32⟩ : BufTy).Contents (Elt F) → (⟨S16x3x512x512, .f32⟩ : BufTy).Contents (Elt F)),
    nullary main_cst_6 (constant S_ .f32 0x40000000#32),
    unary main_cst_6 main_v12 (broadcastInDim S16x3x512x512 ![] bcast_S_S16x3x512x512 : (⟨S_, .f32⟩ : BufTy).Contents (Elt F) → (⟨S16x3x512x512, .f32⟩ : BufTy).Contents (Elt F)),
    binary main_v11 main_v12 main_v13 (Host.divf : (⟨S16x3x512x512, .f32⟩ : BufTy).Contents (Elt F) → (⟨S16x3x512x512, .f32⟩ : BufTy).Contents (Elt F) → (⟨S16x3x512x512, .f32⟩ : BufTy).Contents (Elt F)),
    nullary main_cst_7 (constant S_ .f32 0x7F800000#32),
    binary main_v13 main_cst_7 main_v14 ((fun x v => Host.reduce FloatOps.minimumf x v reducesTo_S16x3x512x512_S16x512x512_d1 h_S_) : (⟨S16x3x512x512, .f32⟩ : BufTy).Contents (Elt F) → (⟨S_, .f32⟩ : BufTy).Contents (Elt F) → (⟨S16x512x512, .f32⟩ : BufTy).Contents (Elt F)),
    unary main_v14 main_v15 (broadcastInDim S16x1x512x512 ![0, 2, 3] bcast_S16x512x512_S16x1x512x512_0_2_3 : (⟨S16x512x512, .f32⟩ : BufTy).Contents (Elt F) → (⟨S16x1x512x512, .f32⟩ : BufTy).Contents (Elt F)),
    nullary main_c_8 (constantI S_ 32 0#32) ]

/-- The second argument's padding. -/
abbrev opsP1 : List (HloOp τ sig (Elt F)) :=
  [ TRef.unary (.of main_v15 : TRef sig ⟨S16x1x512x512, .f32⟩) main_call2.v0 (extractStridedSlice S16x1x1x512 ![0, 0, 0, 0] · slices_S16x1x512x512_S16x1x1x512_0_0_0_0),
    TRef.unary (.of main_v15 : TRef sig ⟨S16x1x512x512, .f32⟩) main_call2.v1 (extractStridedSlice S16x1x7x512 ![0, 0, 1, 0] · slices_S16x1x512x512_S16x1x7x512_0_0_1_0),
    TRef.unary main_call2.v1 main_call2.call0.v0 (Host.reverse [2]),
    TRef.binary main_call2.call0.v0 (.of main_v15 : TRef sig ⟨S16x1x512x512, .f32⟩) main_call2.v3 (fun a b => concatenate S16x1x519x512 2 [⟨S16x1x7x512, a⟩, ⟨S16x1x512x512, b⟩] concatenates_S16x1x7x512_S16x1x512x512_S16x1x519x512_d2),
    TRef.unary main_call2.v3 main_call2.v4 (extractStridedSlice S16x1x1x512 ![0, 0, 518, 0] · slices_S16x1x519x512_S16x1x1x512_0_0_518_0),
    TRef.unary main_call2.v3 main_call2.v5 (extractStridedSlice S16x1x7x512 ![0, 0, 511, 0] · slices_S16x1x519x512_S16x1x7x512_0_0_511_0),
    TRef.unary main_call2.v5 main_call2.call1.v0 (Host.reverse [2]),
    TRef.binary main_call2.v3 main_call2.call1.v0 main_call2.v7 (fun a b => concatenate S16x1x526x512 2 [⟨S16x1x519x512, a⟩, ⟨S16x1x7x512, b⟩] concatenates_S16x1x519x512_S16x1x7x512_S16x1x526x512_d2),
    TRef.unary main_call2.v7 main_call2.v8 (extractStridedSlice S16x1x526x1 ![0, 0, 0, 0] · slices_S16x1x526x512_S16x1x526x1_0_0_0_0),
    TRef.unary main_call2.v7 main_call2.v9 (extractStridedSlice S16x1x526x7 ![0, 0, 0, 1] · slices_S16x1x526x512_S16x1x526x7_0_0_0_1),
    TRef.unary main_call2.v9 main_call2.call2.v0 (Host.reverse [3]),
    TRef.binary main_call2.call2.v0 main_call2.v7 main_call2.v11 (fun a b => concatenate S16x1x526x519 3 [⟨S16x1x526x7, a⟩, ⟨S16x1x526x512, b⟩] concatenates_S16x1x526x7_S16x1x526x512_S16x1x526x519_d3),
    TRef.unary main_call2.v11 main_call2.v12 (extractStridedSlice S16x1x526x1 ![0, 0, 0, 518] · slices_S16x1x526x519_S16x1x526x1_0_0_0_518),
    TRef.unary main_call2.v11 main_call2.v13 (extractStridedSlice S16x1x526x7 ![0, 0, 0, 511] · slices_S16x1x526x519_S16x1x526x7_0_0_0_511),
    TRef.unary main_call2.v13 main_call2.call3.v0 (Host.reverse [3]),
    TRef.binary main_call2.v11 main_call2.call3.v0 main_call2.v15 (fun a b => concatenate S16x1x526x526 3 [⟨S16x1x526x519, a⟩, ⟨S16x1x526x7, b⟩] concatenates_S16x1x526x519_S16x1x526x7_S16x1x526x526_d3) ]

/-- The second argument's window minimum and clamp. -/
abbrev opsE1 : List (HloOp τ sig (Elt F)) :=
  [ nullary main_cst_9 (constant S_ .f32 0x7F800000#32),
    unary main_cst_9 main_v17 (broadcastInDim S_ ![] bcast_S_S_ : (⟨S_, .f32⟩ : BufTy).Contents (Elt F) → (⟨S_, .f32⟩ : BufTy).Contents (Elt F)),
    binary main_v16 main_v17 main_v18 ((fun x v => Host.reduceWindow FloatOps.minimumf ![1, 1, 15, 15] ![1, 1, 1, 1] ![0, 0, 0, 0] ![0, 0, 0, 0] x v reduceWindows_S16x1x526x526_S16x1x512x512_w1s1p0_0_w1s1p0_0_w15s1p0_0_w15s1p0_0 h_S_) : (⟨S16x1x526x526, .f32⟩ : BufTy).Contents (Elt F) → (⟨S_, .f32⟩ : BufTy).Contents (Elt F) → (⟨S16x1x512x512, .f32⟩ : BufTy).Contents (Elt F)),
    nullary main_cst_10 (constant S_ .f32 0x00000000#32),
    nullary main_cst_11 (constant S_ .f32 0x3DCCCCCD#32),
    TRef.unary (.of main_cst_10 : TRef sig ⟨S_, .f32⟩) main_call3.v0 id,
    TRef.unary main_call3.v0 main_call3.v1 (broadcastInDim S16x1x512x512 ![] bcast_S_S16x1x512x512),
    TRef.binary main_call3.v1 (.of main_v18 : TRef sig ⟨S16x1x512x512, .f32⟩) main_call3.v2 maximumf,
    TRef.unary (.of main_cst_11 : TRef sig ⟨S_, .f32⟩) main_call3.v3 id,
    TRef.unary main_call3.v3 main_call3.v4 (broadcastInDim S16x1x512x512 ![] bcast_S_S16x1x512x512),
    TRef.binary main_call3.v4 main_call3.v2 main_call3.v5 minimumf ]

/-- The difference of the two clamped maps, its square, the sum from zero, the division by the number of entries. -/
abbrev opsZ : List (HloOp τ sig (Elt F)) :=
  [ binary main_v9 main_v19 main_v20 (subf : (⟨S16x1x512x512, .f32⟩ : BufTy).Contents (Elt F) → (⟨S16x1x512x512, .f32⟩ : BufTy).Contents (Elt F) → (⟨S16x1x512x512, .f32⟩ : BufTy).Contents (Elt F)),
    binary main_v20 main_v20 main_v21 (mulf : (⟨S16x1x512x512, .f32⟩ : BufTy).Contents (Elt F) → (⟨S16x1x512x512, .f32⟩ : BufTy).Contents (Elt F) → (⟨S16x1x512x512, .f32⟩ : BufTy).Contents (Elt F)),
    nullary main_cst_12 (constant S_ .f32 0x00000000#32),
    binary main_v21 main_cst_12 main_v22 ((fun x v => Host.reduceAdd x v reducesTo_S16x1x512x512_S_d0_1_2_3 h_S_) : (⟨S16x1x512x512, .f32⟩ : BufTy).Contents (Elt F) → (⟨S_, .f32⟩ : BufTy).Contents (Elt F) → (⟨S_, .f32⟩ : BufTy).Contents (Elt F)),
    nullary main_cst_13 (constant S_ .f32 0x4A800000#32),
    binary main_v22 main_cst_13 main_v23 (Host.divf : (⟨S_, .f32⟩ : BufTy).Contents (Elt F) → (⟨S_, .f32⟩ : BufTy).Contents (Elt F) → (⟨S_, .f32⟩ : BufTy).Contents (Elt F)) ]

/-- The line is its seven stretches in order. -/
theorem ops_split : (ops : List (HloOp τ sig (Elt F))) = opsA ++ (opsP0 ++ (opsE0 ++ (opsB ++ (opsP1 ++ (opsE1 ++ opsZ))))) := rfl

attribute [local irreducible] Host.reduce Host.reduceWindow Host.reduceAdd concatenate Host.reverse extractStridedSlice broadcastInDim in
set_option maxRecDepth 8192 in
/-- The first stretch leaves the channel minimum of the first argument at its last tensor value. -/
theorem chan0_eq (W : Valuation τ sig (Elt F)) :
    after opsA W (main_v5 : DevRef τ sig) = DarkChannel.channelMinRef (W (main_arg0 : DevRef τ sig)) := by
  after_results
  rfl

attribute [local irreducible] Host.reduce Host.reduceWindow Host.reduceAdd concatenate Host.reverse extractStridedSlice broadcastInDim in
set_option maxRecDepth 8192 in
/-- The padding's stretch leaves the reflect padding of its operand. -/
theorem pad0_eq (W : Valuation τ sig (Elt F)) :
    after opsP0 W (main_v6 : DevRef τ sig) = reflectPad (W (main_v5 : DevRef τ sig)) := by
  after_results
  rfl

attribute [local irreducible] Host.reduce Host.reduceWindow Host.reduceAdd concatenate Host.reverse extractStridedSlice broadcastInDim in
set_option maxRecDepth 8192 in
/-- The window minimum and the clamp leave the clamped window minimum of the padded map. -/
theorem dark0_eq (W : Valuation τ sig (Elt F)) :
    after opsE0 W (main_v9 : DevRef τ sig) = DarkChannel.clampRef (DarkChannel.erodeRef (W (main_v6 : DevRef τ sig))) := by
  after_results
  rfl

attribute [local irreducible] Host.reduce Host.reduceWindow Host.reduceAdd concatenate Host.reverse extractStridedSlice broadcastInDim in
set_option maxRecDepth 8192 in
/-- The same for the second argument. -/
theorem chan1_eq (W : Valuation τ sig (Elt F)) :
    after opsB W (main_v15 : DevRef τ sig) = DarkChannel.channelMinRef (W (main_arg1 : DevRef τ sig)) := by
  after_results
  rfl

attribute [local irreducible] Host.reduce Host.reduceWindow Host.reduceAdd concatenate Host.reverse extractStridedSlice broadcastInDim in
set_option maxRecDepth 8192 in
/-- The same for the second argument. -/
theorem pad1_eq (W : Valuation τ sig (Elt F)) :
    after opsP1 W (main_v16 : DevRef τ sig) = reflectPad (W (main_v15 : DevRef τ sig)) := by
  after_results
  rfl

attribute [local irreducible] Host.reduce Host.reduceWindow Host.reduceAdd concatenate Host.reverse extractStridedSlice broadcastInDim in
set_option maxRecDepth 8192 in
/-- The same for the second argument. -/
theorem dark1_eq (W : Valuation τ sig (Elt F)) :
    after opsE1 W (main_v19 : DevRef τ sig) = DarkChannel.clampRef (DarkChannel.erodeRef (W (main_v16 : DevRef τ sig))) := by
  after_results
  rfl

attribute [local irreducible] Host.reduce Host.reduceWindow Host.reduceAdd concatenate Host.reverse extractStridedSlice broadcastInDim in
set_option maxRecDepth 8192 in
/-- The last stretch leaves the mean squared difference of the two clamped maps. -/
theorem loss_eq (W : Valuation τ sig (Elt F)) :
    after opsZ W (main_v23 : DevRef τ sig) = Host.divf (Host.reduceAdd (mulf (subf (W (main_v9 : DevRef τ sig)) (W (main_v19 : DevRef τ sig))) (subf (W (main_v9 : DevRef τ sig)) (W (main_v19 : DevRef τ sig))))
        (constant S_ .f32 0x00000000#32) reducesTo_S16x1x512x512_S_d0_1_2_3 h_S_) (constant S_ .f32 0x4A800000#32) := by
  after_results

/-! Which stretch leaves which buffer alone: the second argument until its own stretch reads it, the first argument's
    clamped map and the second's intermediate values until the last stretch reads them. -/

set_option maxRecDepth 8192 in
theorem keepA_arg1 (W : Valuation τ sig (Elt F)) : after opsA W (main_arg1 : DevRef τ sig) = W (main_arg1 : DevRef τ sig) := by
  after_results

set_option maxRecDepth 8192 in
theorem keepP0_arg1 (W : Valuation τ sig (Elt F)) : after opsP0 W (main_arg1 : DevRef τ sig) = W (main_arg1 : DevRef τ sig) := by
  after_results

set_option maxRecDepth 8192 in
theorem keepE0_arg1 (W : Valuation τ sig (Elt F)) : after opsE0 W (main_arg1 : DevRef τ sig) = W (main_arg1 : DevRef τ sig) := by
  after_results

set_option maxRecDepth 8192 in
theorem keepB_v9 (W : Valuation τ sig (Elt F)) : after opsB W (main_v9 : DevRef τ sig) = W (main_v9 : DevRef τ sig) := by
  after_results

set_option maxRecDepth 8192 in
theorem keepP1_v9 (W : Valuation τ sig (Elt F)) : after opsP1 W (main_v9 : DevRef τ sig) = W (main_v9 : DevRef τ sig) := by
  after_results

set_option maxRecDepth 8192 in
theorem keepE1_v9 (W : Valuation τ sig (Elt F)) : after opsE1 W (main_v9 : DevRef τ sig) = W (main_v9 : DevRef τ sig) := by
  after_results

attribute [local irreducible] Host.reduce Host.reduceWindow Host.reduceAdd concatenate Host.reverse extractStridedSlice broadcastInDim in
set_option maxRecDepth 8192 in
/-- The fold at the result buffer is the array form of the loss: the line cut into its seven stretches, each stretch's
    equation read at the valuation the earlier stretches leave, and each buffer a stretch does not write read through
    it; what remains is the array form with its two definitions unfolded. -/
theorem out_eq (V : Valuation τ sig (Elt F)) :
    after ops V (main_v23 : DevRef τ sig)
      = DarkChannel.lossRef reflectPad (V (main_arg0 : DevRef τ sig)) (V (main_arg1 : DevRef τ sig)) := by
  rw [ops_split]
  simp only [after_concat]
  rw [loss_eq, dark1_eq, pad1_eq, chan1_eq, keepE0_arg1, keepP0_arg1, keepA_arg1,
    keepE1_v9, keepP1_v9, keepB_v9, dark0_eq, pad0_eq, chan0_eq]
  rfl

/-- Every weakly fair execution of the reference terminates with its result at the array form of the loss of the
    two arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = DarkChannel.lossRef reflectPad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v23).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.Hand

end
-- ==== Proof.LawChannelMin.lean ====
/-
  The channel minimum in its two forms is one map: at every pixel the minimum over the channel axis from +infinity of
  (x + 1) / 2 is the nested minimum of the three values (x + 1) * (1/2).
-/
import proofs.«110682_j16363825398434_1_alg».proof.Proof.Spec
import Idealize.ShloMosaic.PureOps.Reduce
import Idealize.ShloMosaic.Lib.ValueIdx
import Idealize.ShloMosaic.Lib.Pipeline.Value

noncomputable section

namespace DarkChannel

open Idealize.ShloMosaic Idealize.ShloMosaic.ValueIdx

namespace ChannelMin

/-- The word of 2.0 denotes the real 2. -/
theorem ofBits_two : Ideal.ofBits .f32 0x40000000#32 = ((2 : ℝ) : EReal) := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The word of +infinity denotes the top element. -/
theorem ofBits_posInf : Ideal.ofBits .f32 0x7F800000#32 = (⊤ : EReal) := by
  simp [Ideal.ofBits, Ideal.ieee]

/-- Dividing by 2.0 is multiplying by 0.5, at every extended real. -/
theorem div_two_eq_half (v : Ideal .f32) :
    Ideal.div (v + Ideal.ofBits .f32 0x3F800000#32) (Ideal.ofBits .f32 0x40000000#32) = half v := by
  unfold half
  rw [ofBits_two, Ideal.div_coe (by norm_num : (2 : ℝ) ≠ 0), ofBits_half]

/-- The minimum of three extended reals from the top element, as a fold, is the nested binary minimum. -/
theorem fold_min_fin3 (f : Fin 3 → EReal) :
    (Finset.univ : Finset (Fin 3)).fold min (⊤ : EReal) f = min (min (f 0) (f 1)) (f 2) := by
  refine eq_of_forall_le_iff fun c => ?_
  rw [Finset.le_fold_min]
  simp [Fin.forall_fin_succ, le_min_iff, and_assoc]

end ChannelMin

theorem channelMin_eq (x : FVec Ideal Img .f32) : channelMinK x = channelMinRef x := by
  funext i
  obtain ⟨b, u, h, w, rfl⟩ : ∃ b u h w, i = ix4 b u h w := ⟨_, _, _, _, eq_ix4 i⟩
  unfold channelMinRef
  rw [broadcastInDim_apply ![0, 2, 3] _ _ (ix4 b u h w) (ix3 b h w) (by intro a; fin_cases a <;> rfl)]
  have hR : Img.Reduces [1] Min3 := by decide
  rw [Host.reduce_eq_fold_single FloatOps.minimumf _ _ _ hR _ (ix3 b h w)]
  have hlift : ∀ k : Fin 3, hR.lift (ix3 b h w) k = ix4 b k h w := by
    intro k; funext c; apply Fin.ext
    match c with
    | ⟨0, _⟩ => rfl
    | ⟨1, _⟩ => rfl
    | ⟨2, _⟩ => rfl
    | ⟨3, _⟩ => rfl
  show _ = Finset.fold min (Ideal.ofBits .f32 0x7F800000#32)
    (fun k : Fin 3 => Ideal.div (x (hR.lift (ix3 b h w) k) + Ideal.ofBits .f32 0x3F800000#32)
      (Ideal.ofBits .f32 0x40000000#32)) Finset.univ
  simp only [hlift, ChannelMin.div_two_eq_half, ChannelMin.ofBits_posInf]
  exact (ChannelMin.fold_min_fin3 fun k => half (x (ix4 b k h w))).symm

end DarkChannel

end
-- ==== Proof.LawErode.lean ====
/-
  The window minimum read at a pixel: the minimum from +infinity over the 15 x 15 offsets of the padded map of image `t`
  at (h + dh, w + dw) is the nested minimum along the columns inside the nested minimum along the rows: both are the
  greatest lower bound of the same 225 values.
-/
import proofs.«110682_j16363825398434_1_alg».proof.Proof.Spec
import Idealize.ShloMosaic.Lib.ValueIdx
import Idealize.ShloMosaic.Lib.Pipeline.Value

noncomputable section

namespace DarkChannel

open Idealize.ShloMosaic Idealize.ShloMosaic.ValueIdx

namespace Erode

/-- A lower bound of a left fold of minima is a lower bound of the start and of every term. -/
theorem le_foldl_min_iff {ι : Type} (g : ι → EReal) (l : List ι) (v c : EReal) :
    c ≤ l.foldl (fun r n => min r (g n)) v ↔ c ≤ v ∧ ∀ n ∈ l, c ≤ g n := by
  induction l generalizing v with
  | nil => simp
  | cons a l ih =>
    rw [List.foldl_cons, ih, le_min_iff]
    simp only [List.mem_cons, forall_eq_or_imp, and_assoc]

/-- A lower bound of the nested minimum of fifteen values is a lower bound of each. -/
theorem le_min15_iff (f : Fin 15 → Ideal .f32) (c : Ideal .f32) : c ≤ min15 f ↔ ∀ d, c ≤ f d := by
  simp only [min15, le_min_iff]
  constructor
  · rintro ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ d
    fin_cases d <;> assumption
  · intro h
    exact ⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩

/-- The window's shape: one image, one channel, fifteen rows, fifteen columns. -/
abbrev Win : Shape := ⟨4, ![1, 1, 15, 15]⟩

/-- What the window of the result entry `j` contributes at its offset `d`: the padded map's entry at `j + d` where that
    is inside the map, the start value `v` where it is not. -/
def windowTerm (p : FVec Ideal Padded .f32) (v : Ideal .f32) (j : Map.Idx) (d : Win.Idx) : Ideal .f32 :=
  if hin : ∀ a : Fin 4, (![0, 0, 0, 0] : Fin 4 → Nat) a ≤ (j a).val * (![1, 1, 1, 1] : Fin 4 → Nat) a + (d a).val ∧
      (j a).val * (![1, 1, 1, 1] : Fin 4 → Nat) a + (d a).val - (![0, 0, 0, 0] : Fin 4 → Nat) a < Padded.size a then
    p fun a => ⟨(j a).val * (![1, 1, 1, 1] : Fin 4 → Nat) a + (d a).val - (![0, 0, 0, 0] : Fin 4 → Nat) a, (hin a).2⟩
  else v

/-- +infinity, the value the window minimum starts from. -/
def startV : Ideal .f32 :=
  broadcastInDim Sc ![] (by decide : Sc.BroadcastsInDim Sc (![] : Fin 0 → Fin Sc.rank)) (constant (F := Ideal) Sc .f32 0x7F800000#32)
    (Shape.Idx.first (by decide : 0 < Sc.numel))

theorem startV_eq : startV = ⊤ := by
  show Ideal.ofBits .f32 0x7F800000#32 = ⊤
  simp [Ideal.ofBits, Ideal.ieee]

/-- The window minimum at an entry is the left fold of minima of the window's terms in row-major order. -/
theorem erodeRef_fold (p : FVec Ideal Padded .f32) (j : Map.Idx) :
    erodeRef p j = (List.finRange Win.numel).foldl (fun r n => min r (windowTerm p startV j (Win.rowMajor.symm n))) startV := by
  unfold erodeRef Host.reduceWindow
  dsimp only
  refine congrArg (fun f => List.foldl f _ _) (funext fun r => funext fun n => ?_)
  show min r _ = min r _
  congr 1
  unfold windowTerm startV
  congr

/-- Every offset of a window is inside the padded map, where it reads image `t`'s padded map at (h + dh, w + dw). -/
theorem windowTerm_ix4 (p : FVec Ideal Padded .f32) (v : Ideal .f32) (t : Fin 16) (h w : Fin 512) (a0 a1 : Fin 1) (dh dw : Fin 15) :
    windowTerm p v (ix4 t (0 : Fin 1) h w) (ix4 a0 a1 dh dw) =
      tile p t (ix2 (⟨h.val + dh.val, by have := h.isLt; have := dh.isLt; omega⟩ : Fin 526)
        (⟨w.val + dw.val, by have := w.isLt; have := dw.isLt; omega⟩ : Fin 526)) := by
  have ht := t.isLt; have hh := h.isLt; have hw := w.isLt
  have h0 := a0.isLt; have h1 := a1.isLt; have hdh := dh.isLt; have hdw := dw.isLt
  unfold windowTerm
  rw [dif_pos]
  · show p _ = p (ix4 t (0 : Fin 1) (⟨h.val + dh.val, _⟩ : Fin 526) (⟨w.val + dw.val, _⟩ : Fin 526))
    refine congrArg p (funext fun a => ?_)
    match a with
    | ⟨0, _⟩ => apply Fin.ext; show t.val * 1 + a0.val - 0 = t.val; omega
    | ⟨1, _⟩ => apply Fin.ext; show 0 * 1 + a1.val - 0 = 0; omega
    | ⟨2, _⟩ => apply Fin.ext; show h.val * 1 + dh.val - 0 = h.val + dh.val; omega
    | ⟨3, _⟩ => apply Fin.ext; show w.val * 1 + dw.val - 0 = w.val + dw.val; omega
  · intro a
    match a with
    | ⟨0, _⟩ => show 0 ≤ t.val * 1 + a0.val ∧ t.val * 1 + a0.val - 0 < 16; omega
    | ⟨1, _⟩ => show 0 ≤ 0 * 1 + a1.val ∧ 0 * 1 + a1.val - 0 < 1; omega
    | ⟨2, _⟩ => show 0 ≤ h.val * 1 + dh.val ∧ h.val * 1 + dh.val - 0 < 526; omega
    | ⟨3, _⟩ => show 0 ≤ w.val * 1 + dw.val ∧ w.val * 1 + dw.val - 0 < 526; omega

end Erode

open Erode in
theorem erodeRef_apply (p : FVec Ideal Padded .f32) (t : Fin 16) (h w : Fin 512) :
    erodeRef p (ix4 t (0 : Fin 1) h w) = erodeAt (tile p t) h w := by
  refine eq_of_forall_le_iff fun c => ?_
  unfold erodeAt
  simp only [le_min15_iff]
  rw [erodeRef_fold, le_foldl_min_iff]
  constructor
  · rintro ⟨-, H⟩ dh dw
    have H' := H (Win.rowMajor (ix4 (0 : Fin 1) (0 : Fin 1) dh dw)) (List.mem_finRange _)
    rwa [Equiv.symm_apply_apply, windowTerm_ix4] at H'
  · intro H
    refine ⟨by rw [startV_eq]; exact le_top, fun n _ => ?_⟩
    obtain ⟨a0, a1, dh, dw, e⟩ : ∃ (a0 a1 : Fin 1) (dh dw : Fin 15), Win.rowMajor.symm n = ix4 a0 a1 dh dw :=
      ⟨_, _, _, _, eq_ix4 _⟩
    rw [e, windowTerm_ix4]
    exact H dh dw

end DarkChannel

end
-- ==== Proof.LawLoss.lean ====
/-
  The sum of the squared differences in its two forms: the sum from zero over every entry of the sixteen maps of the
  squared difference of the clamped window minima is the running total over the images of each image's sum over its
  rows and columns.

  The host's sum into a scalar is the initial value plus the sum over every index of the maps; an index of the maps is
  its image, row and column (the channel axis has one coordinate), so that sum is a triple sum; the entry at image b,
  row h, column w is the squared difference of the two clamped window minima there; and the running total after image n
  is zero plus the sum of the first n + 1 images' shares. Addition of extended reals is associative and commutative, so
  nothing here needs the values to be finite.
-/
import proofs.«110682_j16363825398434_1_alg».proof.Proof.Spec
import proofs.«110682_j16363825398434_1_alg».proof.Proof.LawErode
import Idealize.ShloMosaic.PureOps.Reduce
import Idealize.ShloMosaic.PureOps.Ideal.Laws
import Idealize.ShloMosaic.Lib.ValueIdx
import Idealize.ShloMosaic.Lib.IdealHost
import Idealize.ShloMosaic.Lib.Pipeline.Value
import Mathlib.Algebra.BigOperators.Fin
import Mathlib.Algebra.BigOperators.Group.Finset.Basic

noncomputable section

namespace DarkChannel

open Idealize.ShloMosaic Idealize.ShloMosaic.ValueIdx
open scoped BigOperators

/-- An index of the maps is its image, its row and its column: the channel axis has the one coordinate 0. -/
def mapIdxEquiv : Map.Idx ≃ Fin 16 × Fin 512 × Fin 512 where
  toFun i := (i 0, i 2, i 3)
  invFun t := ix4 t.1 (0 : Fin 1) t.2.1 t.2.2
  left_inv i := by
    funext a
    match a with
    | ⟨0, _⟩ => rfl
    | ⟨1, _⟩ =>
      refine Fin.ext ?_
      have h1 := (i ⟨1, by decide⟩).isLt
      change _ < 1 at h1
      show (0 : ℕ) = (i ⟨1, _⟩).val
      omega
    | ⟨2, _⟩ => rfl
    | ⟨3, _⟩ => rfl
  right_inv _ := rfl

/-- So a sum over the maps' indices is the sum over the images of the sum over the rows of the sum over the columns. -/
theorem sum_mapIdx {M : Type*} [AddCommMonoid M] (f : Map.Idx → M) :
    ∑ i, f i = ∑ b : Fin 16, ∑ h : Fin 512, ∑ w : Fin 512, f (ix4 b (0 : Fin 1) h w) := by
  rw [← Equiv.sum_comp mapIdxEquiv.symm f, Fintype.sum_prod_type]
  refine Finset.sum_congr rfl fun b _ => ?_
  rw [Fintype.sum_prod_type]
  rfl

/-- The clamp read at an index clamps the entry. -/
theorem clampRef_apply (x : FVec Ideal Map .f32) (i : Map.Idx) : clampRef x i = clampS (x i) := by
  unfold clampRef clampS
  rw [minimumf_apply, maximumf_apply, broadcastInDim_scalar_apply, broadcastInDim_scalar_apply, constant_apply,
    constant_apply]

/-- The squared difference of the clamped window minima read at image b, row h, column w. -/
theorem sqDiff_apply (p q : FVec Ideal Padded .f32) (b : Fin 16) (h w : Fin 512) :
    mulf (subf (clampRef (erodeRef p)) (clampRef (erodeRef q))) (subf (clampRef (erodeRef p)) (clampRef (erodeRef q)))
        (ix4 b (0 : Fin 1) h w)
      = sqDiffAt (tile p b) (tile q b) h w := by
  rw [mulf_apply, subf_apply, clampRef_apply, clampRef_apply, erodeRef_apply, erodeRef_apply]
  rfl

/-- The running total after image n is zero plus the sum of the shares of images 0 to n. -/
theorem accLoss_eq_sum (p q : FVec Ideal Padded .f32) : ∀ (n : ℕ) (hn : n < 16),
    accLoss p q n hn
      = Ideal.ofBits .f32 0x00000000#32
        + ∑ t : Fin (n + 1), tileLoss (tile p ⟨t.val, by have := t.isLt; omega⟩) (tile q ⟨t.val, by have := t.isLt; omega⟩)
  | 0, hn => by
    rw [accLoss, Fin.sum_univ_one]
    rfl
  | n + 1, hn => by
    rw [accLoss, accLoss_eq_sum p q n (Nat.lt_of_succ_lt hn), add_assoc]
    conv_rhs => rw [Fin.sum_univ_castSucc]
    rfl

theorem accLoss_eq (p q : FVec Ideal Padded .f32) :
    Host.reduceAdd
        (mulf (subf (clampRef (erodeRef p)) (clampRef (erodeRef q))) (subf (clampRef (erodeRef p)) (clampRef (erodeRef q))))
        (constant Sc .f32 0x00000000#32) (by decide : Map.ReducesTo [0, 1, 2, 3] Sc) (by decide : 0 < Sc.numel) ix0
      = accLoss p q 15 (by decide) := by
  rw [hostReduceAdd_apply, Ideal.hostReduceAdd_total _ (fun b => b.elim0), constant_apply, sum_mapIdx, accLoss_eq_sum]
  refine congrArg _ (Finset.sum_congr rfl fun b _ => ?_)
  unfold tileLoss
  exact Finset.sum_congr rfl fun h _ => Finset.sum_congr rfl fun w _ => sqDiff_apply p q b h w

end DarkChannel

end
-- ==== Proof.Laws.lean ====
/-
  The loss in its two forms is one scalar, whatever the padding function is: the channel minima are one map, so the
  padded maps are one array, and over those the two sums agree.
-/
import proofs.«110682_j16363825398434_1_alg».proof.Proof.Spec
import proofs.«110682_j16363825398434_1_alg».proof.Proof.LawChannelMin
import proofs.«110682_j16363825398434_1_alg».proof.Proof.LawLoss

noncomputable section

namespace DarkChannel

open Idealize.ShloMosaic Idealize.ShloMosaic.ValueIdx

theorem loss_eq (pad : FVec Ideal Map .f32 → FVec Ideal Padded .f32) (x y : FVec Ideal Img .f32) :
    lossK pad x y = lossRef pad x y := by
  funext j
  obtain rfl : j = ix0 := eq_ix0 j
  unfold lossK lossRef darkRef Host.divf
  rw [← channelMin_eq x, ← channelMin_eq y, accLoss_eq]
  rfl

end DarkChannel

end
-- ==== Proof.lean ====
/-
  The certificate of the dark-channel loss kernels against their jnp reference, over the extended reals.

  Both programs shift every channel by one and halve it, take the minimum over the three channels, reflect-pad the map
  by seven on every side with the same sequence of slices, reversals and concatenations, take the minimum over every
  15 x 15 window, clamp to [0, 0.1] with the same two constants, subtract, square, sum and divide by the same 2^22.
  They differ in four places, none of which changes a value over the extended reals: the kernel multiplies by 1/2 where
  the reference divides by 2; it nests two binary minima where the reference folds the minimum from +infinity; it takes
  the window minimum along the columns and then along the rows where the reference folds it over the 225 offsets at
  once; and it sums each image's rows, then the row sums, and keeps a running total over the sixteen images where the
  reference sums every entry from zero. Addition and minimum on the extended reals are associative and commutative, so
  no finiteness of the inputs is used.

  The kernel program's result is read off its frame run (the two kernels' result arrays as functions of their entry
  contents, the padding between them as one function), the reference's off its straight line of host operations; the
  two are joined by `DarkChannel.loss_eq`.
-/
import proofs.«110682_j16363825398434_1_alg».proof.Defs
import proofs.«110682_j16363825398434_1_alg».proof.Proof.Gen.Kernel
import proofs.«110682_j16363825398434_1_alg».proof.Proof.Gen.Kernel.Frame
import proofs.«110682_j16363825398434_1_alg».proof.Proof.Gen.KernelIdeal
import proofs.«110682_j16363825398434_1_alg».proof.Proof.Gen.KernelIdeal.Frame
import proofs.«110682_j16363825398434_1_alg».proof.Proof.Gen.ReferenceIdeal
import proofs.«110682_j16363825398434_1_alg».proof.Proof.Gen.Pre_finite_inputs
import proofs.«110682_j16363825398434_1_alg».proof.Proof.KernelValue
import proofs.«110682_j16363825398434_1_alg».proof.Proof.RefRun
import proofs.«110682_j16363825398434_1_alg».proof.Proof.Laws

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- The two programs pad with the same slices, reversals and concatenations: one function. -/
theorem pad_eq : (Cert.KernelIdeal.Launched.reflectPad (F := Ideal)) = Cert.ReferenceIdeal.Hand.reflectPad := rfl

/-- From memories agreeing on the arguments the kernel program ends at the pointwise form of the loss and the reference at
    its array form, of the same two arrays and the same padding: one scalar. -/
theorem algebraic : Cert.algebraic_KernelIdeal_ReferenceIdeal := by
  intro m ρ m' ρ' _ hagree
  refine ⟨fun c => DarkChannel.lossK Cert.KernelIdeal.Launched.reflectPad
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Launched.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2, ← pad_eq]
  exact (DarkChannel.loss_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
